-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x600000 : S_.BroadcastsInDim S2x600000 (![] : Fin 0 → Fin S2x600000.rank)
  reducesTo_S2x600000_S_d0_1 : S2x600000.ReducesTo [0, 1] S_

variable [Facts]

def fn_part2 {F : FTy → Type} [FloatOps F] (main_arg1 : IVec S2x600000 32) (main_v33 : IVec S_ 1) : IVec S_ 1 :=
  let main_c_12 : IVec S_ 32 := constantI S_ 32 0#32
  let main_v34 : IVec S2x600000 32 := broadcastInDim S2x600000 ![] bcast_S_S2x600000 main_c_12
  let main_v35 : IVec S2x600000 1 := cmpi .sge main_arg1 main_v34
  let main_c_13 : IVec S_ 1 := constantI S_ 1 1#1
  let main_v36 : IVec S_ 1 := (fun x v => Host.reduce IntOp.andi x v reducesTo_S2x600000_S_d0_1 h_S_) main_v35 main_c_13
  let main_v37 : IVec S_ 1 := andi main_v33 main_v36
  let main_c_14 : IVec S_ 32 := constantI S_ 32 100000#32
  let main_v38 : IVec S2x600000 32 := broadcastInDim S2x600000 ![] bcast_S_S2x600000 main_c_14
  let main_v39 : IVec S2x600000 1 := cmpi .slt main_arg1 main_v38
  let main_c_15 : IVec S_ 1 := constantI S_ 1 1#1
  let main_v40 : IVec S_ 1 := (fun x v => Host.reduce IntOp.andi x v reducesTo_S2x600000_S_d0_1 h_S_) main_v39 main_c_15
  let main_v41 : IVec S_ 1 := andi main_v37 main_v40
  main_v41

def fn_part1 {F : FTy → Type} [FloatOps F] (main_arg1 : IVec S2x600000 32) (main_arg5 : FVec F S128 .f32) (main_arg6 : FVec F S128x128 .f32) (main_arg7 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S2x600000 32) (main_arg2 : FVec F S128x128 .f32) (main_arg3 : FVec F S128x128 .f32) (main_arg4 : FVec F S256x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg5 main_arg6 main_arg7 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S256x128 : Shape := ⟨2, ![256, 128]⟩
abbrev S128 : Shape := ⟨1, ![128]⟩
abbrev S1x600000 : Shape := ⟨2, ![1, 600000]⟩
abbrev S600000 : Shape := ⟨1, ![600000]⟩
abbrev S1200000 : Shape := ⟨1, ![1200000]⟩
abbrev S_ : Shape := ⟨0, ![]⟩
abbrev S1200000x1 : Shape := ⟨2, ![1200000, 1]⟩
abbrev S1 : Shape := ⟨1, ![1]⟩
abbrev S1x1 : Shape := ⟨2, ![1, 1]⟩
abbrev S1200000x128 : Shape := ⟨2, ![1200000, 128]⟩
abbrev S1x128 : Shape := ⟨2, ![1, 128]⟩
abbrev S600000x128 : Shape := ⟨2, ![600000, 128]⟩
abbrev S6000x128 : Shape := ⟨2, ![6000, 128]⟩

abbrev nBuf : Space → Nat
  | .hbm => 46
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S1200000, .i32⟩
  | .hbm, ⟨13, _⟩ => ⟨S_, .i32⟩
  | .hbm, ⟨14, _⟩ => ⟨S1200000, .i32⟩
  | .hbm, ⟨15, _⟩ => ⟨S1200000, .i1⟩
  | .hbm, ⟨16, _⟩ => ⟨S_, .i32⟩
  | .hbm, ⟨17, _⟩ => ⟨S1200000, .i32⟩
  | .hbm, ⟨18, _⟩ => ⟨S1200000, .i32⟩
  | .hbm, ⟨19, _⟩ => ⟨S1200000, .i32⟩
  | .hbm, ⟨20, _⟩ => ⟨S1200000x1, .i32⟩
  | .hbm, ⟨21, _⟩ => ⟨S1, .i32⟩
  | .hbm, ⟨22, _⟩ => ⟨S_, .i32⟩
  | .hbm, ⟨23, _⟩ => ⟨S1200000x1, .i32⟩
  | .hbm, ⟨24, _⟩ => ⟨S1200000x1, .i1⟩
  | .hbm, ⟨25, _⟩ => ⟨S1x1, .i32⟩
  | .hbm, ⟨26, _⟩ => ⟨S1200000x1, .i32⟩
  | .hbm, ⟨27, _⟩ => ⟨S1200000x1, .i1⟩
  | .hbm, ⟨28, _⟩ => ⟨S1200000x1, .i1⟩
  | .hbm, ⟨29, _⟩ => ⟨S_, .i1⟩
  | .hbm, ⟨30, _⟩ => ⟨S1200000, .i1⟩
  | .hbm, ⟨31, _⟩ => ⟨S1200000x128, .f32⟩
  | .hbm, ⟨32, _⟩ => ⟨S1200000x128, .i1⟩
  | .hbm, ⟨33, _⟩ => ⟨S_, .f32⟩
  | .hbm, ⟨34, _⟩ => ⟨S1200000x128, .f32⟩
  | .hbm, ⟨35, _⟩ => ⟨S1200000x128, .f32⟩
  | .hbm, ⟨36, _⟩ => ⟨S128x128, .bf16⟩
  | .hbm, ⟨37, _⟩ => ⟨S128x128, .bf16⟩
  | .hbm, ⟨38, _⟩ => ⟨S128x128, .f32⟩
  | .hbm, ⟨39, _⟩ => ⟨S128x128, .bf16⟩
  | .hbm, ⟨40, _⟩ => ⟨S128x128, .f32⟩
  | .hbm, ⟨41, _⟩ => ⟨S128x128, .bf16⟩
  | .hbm, ⟨42, _⟩ => ⟨S128x128, .bf16⟩
  | .hbm, ⟨43, _⟩ => ⟨S1x128, .f32⟩
  | .hbm, ⟨44, _⟩ => ⟨S1x128, .f32⟩
  | .hbm, ⟨45, _⟩ => ⟨S600000x128, .f32⟩
  | .local _ .vmem, ⟨0, _⟩ => ⟨S6000x128, .f32⟩
  | .local _ .vmem, ⟨1, _⟩ => ⟨S6000x128, .f32⟩
  | .local _ .vmem, ⟨2, _⟩ => ⟨S6000x128, .f32⟩
  | .local _ .vmem, ⟨3, _⟩ => ⟨S6000x128, .f32⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S128x128, .bf16⟩
  | .local _ .vmem, ⟨10, _⟩ => ⟨S1x128, .f32⟩
  | .local _ .vmem, ⟨11, _⟩ => ⟨S6000x128, .f32⟩
  | .local _ .vmem, ⟨12, _⟩ => ⟨S6000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c100_i32 : BitVec 32 := 100#32
  let v0 : BitVec 32 := Scalar.addi c100_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S600000_S1200000_d0 : Shape.Concatenates [S600000, S600000] S1200000 0
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S1200000x1 : S_.BroadcastsInDim S1200000x1 (![] : Fin 0 → Fin S1200000x1.rank)
  bcast_S1_S1x1_1 : S1.BroadcastsInDim S1x1 (![1] : Fin 1 → Fin S1x1.rank)
  bcast_S1x1_S1200000x1_0_1 : S1x1.BroadcastsInDim S1200000x1 (![0, 1] : Fin 2 → Fin S1200000x1.rank)
  reducesTo_S1200000x1_S1200000_d1 : S1200000x1.ReducesTo [1] S1200000
  h_S_ : 0 < S_.numel
  bcast_S1200000_S1200000x128_0 : S1200000.BroadcastsInDim S1200000x128 (![0] : Fin 1 → Fin S1200000x128.rank)
  bcast_S_S1200000x128 : S_.BroadcastsInDim S1200000x128 (![] : Fin 0 → Fin S1200000x128.rank)
  bitsLt_bf16_f32 : FTy.bits .bf16 < FTy.bits .f32
  slices_S256x128_S128x128_0_0 : S256x128.Slices ![0, 0] S128x128
  slices_S256x128_S128x128_128_0 : S256x128.Slices ![128, 0] S128x128
  shapeCasts_S128_S1x128 : S128.ShapeCasts S1x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6000x128 : S1x128.Broadcasts S6000x128
  gather_S100000x128_S1200000x1_S1200000x128_1_0_n_n_0_1_1128_wf : GatherDims.WF S100000x128 S1200000x1 S1200000x128 [1] [0] [] [0] [] 1 ![1, 128]
  dot_S6000x128_S128x128_S6000x128_1_0_0_1_n_n_wf : DotDims.WF S6000x128 S128x128 S6000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S1200000x128.size a
  hwx0_0 : ∀ i : grid0.Coords, EltTy.bits .f32 = 32 ∨ (Rect.block (s := S1200000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S1200000x128.size a
  hwx0_1 : ∀ i : grid0.Coords, EltTy.bits .f32 = 32 ∨ (Rect.block (s := S1200000x128) S6000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6000x128.size a ≤ S600000x128.size a
  hwx0_9 : ∀ i : grid0.Coords, EltTy.bits .f32 = 32 ∨ (Rect.block (s := S600000x128) S6000x128.size (cc0_transform_9 i) (hinb0_9 i)).WholeWords (EltTy.packing .f32)

variable [Facts₀]

def gather_S100000x128_S1200000x1_S1200000x128_1_0_n_n_0_1_1128 : GatherDims S100000x128 S1200000x1 S1200000x128 where
  offsetDims := [1]
  collapsedSliceDims := [0]
  operandBatchingDims := []
  startIndicesBatchingDims := []
  startIndexMap := [0]
  indexVectorDim := 1
  sliceSizes := ![1, 128]
  wf := gather_S100000x128_S1200000x1_S1200000x128_1_0_n_n_0_1_1128_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf

abbrev win0_0 : Pipeline.Window sig grid0 :=
  Pipeline.Window.ofSpec (Memref.whole main_v5) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S6000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S256x128 : Shape := ⟨2, ![256, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x256 : Shape := ⟨2, ![600000, 256]⟩
abbrev S1x128 : Shape := ⟨2, ![1, 128]⟩

abbrev nBuf : Space → Nat
  | .hbm => 62
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x600000, .i32⟩
  | .hbm, ⟨9, _⟩ => ⟨S600000, .i32⟩
  | .hbm, ⟨10, _⟩ => ⟨S_, .i32⟩
  | .hbm, ⟨11, _⟩ => ⟨S600000, .i32⟩
  | .hbm, ⟨12, _⟩ => ⟨S600000, .i1⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S600000x1, .i32⟩
  | .hbm, ⟨18, _⟩ => ⟨S600000x128, .f32⟩
  | .hbm, ⟨19, _⟩ => ⟨S1x600000, .i32⟩
  | .hbm, ⟨20, _⟩ => ⟨S600000, .i32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x128, .f32⟩
  | .hbm, ⟨31, _⟩ => ⟨S600000x128, .f32⟩
  | .hbm, ⟨32, _⟩ => ⟨S600000x128, .f32⟩
  | .hbm, ⟨33, _⟩ => ⟨S_, .f32⟩
  | .hbm, ⟨34, _⟩ => ⟨S600000x128, .f32⟩
  | .hbm, ⟨35, _⟩ => ⟨S600000x128, .f32⟩
  | .hbm, ⟨36, _⟩ => ⟨S_, .f32⟩
  | .hbm, ⟨37, _⟩ => ⟨S600000x128, .f32⟩
  | .hbm, ⟨38, _⟩ => ⟨S600000x128, .f32⟩
  | .hbm, ⟨39, _⟩ => ⟨S600000x128, .f32⟩
  | .hbm, ⟨40, _⟩ => ⟨S600000x128, .f32⟩
  | .hbm, ⟨41, _⟩ => ⟨S600000x128, .f32⟩
  | .hbm, ⟨42, _⟩ => ⟨S_, .f32⟩
  | .hbm, ⟨43, _⟩ => ⟨S600000x128, .f32⟩
  | .hbm, ⟨44, _⟩ => ⟨S600000x128, .f32⟩
  | .hbm, ⟨45, _⟩ => ⟨S_, .f32⟩
  | .hbm, ⟨46, _⟩ => ⟨S600000x128, .f32⟩
  | .hbm, ⟨47, _⟩ => ⟨S600000x128, .f32⟩
  | .hbm, ⟨48, _⟩ => ⟨S600000x128, .f32⟩
  | .hbm, ⟨49, _⟩ => ⟨S600000x128, .f32⟩
  | .hbm, ⟨50, _⟩ => ⟨S600000x256, .f32⟩
  | .hbm, ⟨51, _⟩ => ⟨S600000x128, .f32⟩
  | .hbm, ⟨52, _⟩ => ⟨S1x128, .f32⟩
  | .hbm, ⟨53, _⟩ => ⟨S600000x128, .f32⟩
  | .hbm, ⟨54, _⟩ => ⟨S600000x128, .f32⟩
  | .hbm, ⟨55, _⟩ => ⟨S_, .f32⟩
  | .hbm, ⟨56, _⟩ => ⟨S600000x128, .f32⟩
  | .hbm, ⟨57, _⟩ => ⟨S600000x128, .f32⟩
  | .hbm, ⟨58, _⟩ => ⟨S600000x128, .f32⟩
  | .hbm, ⟨59, _⟩ => ⟨S1x128, .f32⟩
  | .hbm, ⟨60, _⟩ => ⟨S600000x128, .f32⟩
  | .hbm, ⟨61, _⟩ => ⟨S600000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call0_cst : Ref sig .tc := ⟨.hbm, 55, rfl⟩
abbrev main_call0_v0 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  bcast_S_S600000x128 : S_.BroadcastsInDim S600000x128 (![] : Fin 0 → Fin S600000x128.rank)
  concatenates_S600000x128_S600000x128_S600000x256_d1 : Shape.Concatenates [S600000x128, S600000x128] S600000x256 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  gather_S100000x128_S600000x1_S600000x128_1_0_n_n_0_1_1128_wf : GatherDims.WF S100000x128 S600000x1 S600000x128 [1] [0] [] [0] [] 1 ![1, 128]
  dot_S600000x128_S128x128_S600000x128_1_0_0_1_n_n_wf : DotDims.WF S600000x128 S128x128 S600000x128 [1] [0] [0] [1] [] []
  dot_S600000x256_S256x128_S600000x128_1_0_0_1_n_n_wf : DotDims.WF S600000x256 S256x128 S600000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf

class Facts : Prop extends Facts₀ where

variable [Facts]
-- ==== Proof.EntryK.lean ====
/-
  The program up to its one kernel launch: the buffers as the launch finds them.

  Before the launch the host slices and joins the two index rows into one list of 2·E indices, wraps the negative ones,
  gathers the 2·E table rows (filling a row whose index falls outside the table), narrows the weight matrices, cuts the
  projection into its upper and lower half and gives the two biases a unit leading axis. `V` is the contents of every
  buffer after those operations; the eight argument arrays are written by none of them, so the launch finds them as
  they were (`V_main_argK`).
-/
import proofs.«428091_j34256659153220_3_alg».proof.Proof.Gen.Kernel.Launch
import proofs.«428091_j34256659153220_3_alg».proof.Proof.Gen.Kernel.Skeleton
import proofs.«428091_j34256659153220_3_alg».proof.Proof.Gen.Kernel.Points
import Idealize.ShloMosaic.Lib.Pipeline.FrameBody
import Idealize.ShloMosaic.Lib.Pipeline.Frame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the launch is reached: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to the launch: the three stretches, then the launch, holding the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.BodyK.lean ====
/-
  The kernel body at one grid point, and what it leaves in the output window's staging buffer.

  At a grid point the body loads the nine input blocks whole (two 6000×128 blocks of gathered rows, five 128×128
  weight blocks, two 1×128 bias rows), computes, and stores one 6000×128 block: `out0_9` is that block as a function of
  the nine input blocks, the one store read back through the rectangle it covers. The body also loads the output
  buffer before storing into it; the loaded value is not used.
-/
import proofs.«428091_j34256659153220_3_alg».proof.Proof.EntryK
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the store take a whole buffer -/

abbrev rA : Rect S6000x128 := Rect.unit (s := S6000x128) ![0, 0] S6000x128.size inb_S6000x128_S6000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- The output window's staging buffer after the body, from the nine input blocks: its one store. -/
def out0_9 (x0 : Vec F S6000x128 .f32) (x1 : Vec F S6000x128 .f32) (x2 : Vec F S128x128 .bf16) (x3 : Vec F S128x128 .bf16) (x4 : Vec F S128x128 .bf16) (x5 : Vec F S128x128 .bf16) (x6 : Vec F S1x128 .f32) (x7 : Vec F S128x128 .bf16) (x8 : Vec F S1x128 .f32) : Vec F S6000x128 .f32 :=
  View.canon [⟨rA, k0_pay1 (k0_pay2 (View.ld x0 rA) (View.ld x1 rA) (View.ld x2 rW) (View.ld x3 rW) (View.ld x4 rW) (View.ld x5 rW) (View.ld x6 rB) (View.ld x7 rW)) (View.ld x8 rB)⟩]

/-- The one store covers the buffer. -/
theorem cover0_9 (p0 : Vec F S6000x128 .f32) (y : S6000x128.Idx) :
    ∃ pc ∈ ([⟨rA, p0⟩] : List (View.Piece (Elt F) S6000x128 .f32)), y ∈ pc.1.set :=
  View.cover_of_tiled [⟨rA, p0⟩] S6000x128.size (by rfl) y

set_option maxHeartbeats 1000000 in
/-- The body on whole staging memrefs, the inputs' at contents `xW` and the output's at anything, runs to the
    continuation holding the inputs' as they were and the output's at `out0_9` of the inputs'. -/
theorem sound_kernel (c : Dev nD) (E : Set ℕ) (i : grid0.Coords) (arg1 : Memref sig .tc .vmem S6000x128 .f32) (harg1 : arg1.IsWhole) (arg2 : Memref sig .tc .vmem S6000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S6000x128 .f32) (harg10 : arg10.IsWhole)
    (x0 : Vec F S6000x128 .f32) (x1 : Vec F S6000x128 .f32) (x2 : Vec F S128x128 .bf16) (x3 : Vec F S128x128 .bf16) (x4 : Vec F S128x128 .bf16) (x5 : Vec F S128x128 .bf16) (x6 : Vec F S1x128 .f32) (x7 : Vec F S128x128 .bf16) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__mha_kernel i arg1 harg1 arg2 harg2 arg3 harg3 arg4 harg4 arg5 harg5 arg6 harg6 arg7 harg7 arg8 harg8 arg9 harg9 arg10 harg10) K := by
  simp only [cc0__mha_kernel_eq_skeleton]; unfold cc0__mha_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

end Cert.Kernel.Hand

end
-- ==== Proof.ObligK.lean ====
/-
  The pipeline's proof data and the body obligation at every grid point.

  Two input windows read ONE array (the 2·E gathered rows: block t for the source rows, block 100 + t for the target
  rows), so the array's full share is dealt to them in two halves; every other window has an array of its own. Nothing
  is carried between grid points and the body uses neither scratch nor the generator register: the invariant is the
  scoped rest alone. Here: the proof data, and the body's triple at a generic grid point.
-/
import proofs.«428091_j34256659153220_3_alg».proof.Proof.BodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core `c`: the arrays as the launch finds them; after the body at point `t` each
    input's buffer at its block and the output's at `out0_9` of the input blocks; nothing carried, nothing owed; the
    shared array held in two halves by its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.RunK.lean ====
/-
  The launch of the pipeline, and the frame.

  The array of gathered rows is read by two windows, so its full share is dealt to them in two halves; each of the
  other eight arrays goes whole to its one window. The body touches neither a scratch buffer nor the generator
  register, so the invariant between grid points is just the scoped rest. At the end every window's array is what the
  write-backs made of it, and every buffer that no window stages — the eight arguments among them — holds what the
  launch found, which is what the program started with.
-/
import proofs.«428091_j34256659153220_3_alg».proof.Proof.ObligK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s array, held whole at share `q` at the launch contents, is the proof data's holding of it at entry. -/
theorem arr_at (c : Dev nD) (w : Fin cfg0.W) (q : PosShare TreeShare) (hq : (dats m 0 c).share w = q) :
    ((((c.tc : Thread nD τ).loc (Pipeline.arrRef spec0 w)) ↦{q} V m c (Pipeline.arrRef spec0 w)) : sProp 𝕄)
      = (((cfg0.win w).arr.view.loc (c.tc : Thread nD τ)) ↦[(cfg0.win w).arr.view.set]{(dats m 0 c).share w} ((dats m 0 c).arrAt w 0)) := by
  rw [(arr_whole0 w).set_eq_univ, hq]; rfl

/-- The nine distinct buffers behind the ten windows' arrays, one by one. -/
theorem arrBufs_chain (Φ : Ref sig .tc → sProp 𝕄) :
    bigSep (Finset.univ.image (Pipeline.arrRef spec0)) Φ
      = iprop(Φ main_v5 ∗ Φ main_v6 ∗ Φ main_v7 ∗ Φ main_v9 ∗ Φ main_v11 ∗ Φ main_v13 ∗ Φ main_v12 ∗ Φ main_v14 ∗ Φ main_v15) :=
  bigSep_eq_bigSepL_of_eq [main_v5, main_v6, main_v7, main_v9, main_v11, main_v13, main_v12, main_v14, main_v15] (by decide) (by decide) Φ

/-- The nine buffers behind the ten windows' arrays, dealt to the windows: the gathered rows in two halves. -/
theorem arrays_deal (c : Dev nD) :
    (Pipeline.arrBufs spec0 c (V m c) : sProp 𝕄) ⊢ (dats m 0 c).arrays ((dats m 0 c).arrAt · 0) := by
  unfold Pipeline.arrBufs Dat.arrays
  rw [arrBufs_chain, bigSep_W0]
  iintro ⟨H5, H6, H7, H9, H11, H13, H12, H14, H15⟩
  ihave Hs := (pointsTo_share (PosShare.mem_left_op_right fullShare)).1 $$ H5
  icases Hs with ⟨Hl, Hr⟩
  isplitl [Hl]; · iapply (Entails.of_eq (arr_at m c 0 fullShare.left rfl)); iexact Hl
  isplitl [Hr]; · iapply (Entails.of_eq (arr_at m c 1 fullShare.right rfl)); iexact Hr
  isplitl [H6]; · iapply (Entails.of_eq (arr_at m c 2 fullShare rfl)); iexact H6
  isplitl [H7]; · iapply (Entails.of_eq (arr_at m c 3 fullShare rfl)); iexact H7
  isplitl [H9]; · iapply (Entails.of_eq (arr_at m c 4 fullShare rfl)); iexact H9
  isplitl [H11]; · iapply (Entails.of_eq (arr_at m c 5 fullShare rfl)); iexact H11
  isplitl [H13]; · iapply (Entails.of_eq (arr_at m c 6 fullShare rfl)); iexact H13
  isplitl [H12]; · iapply (Entails.of_eq (arr_at m c 7 fullShare rfl)); iexact H12
  isplitl [H14]; · iapply (Entails.of_eq (arr_at m c 8 fullShare rfl)); iexact H14
  iapply (Entails.of_eq (arr_at m c 9 fullShare rfl)); iexact H15

set_option backward.isDefEq.respectTransparency.types false in
/-- Every weakly fair execution of the program terminates; at the end every window's array is what the write-backs
    made of it and every other unscoped buffer is as the launch found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none) (hsplit := arrays_deal m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => (show iprop(emp ∗ Pipeline.scopedRest spec0 c) ⊢ (Pipeline.scopedRest spec0 c : sProp 𝕄) from by iintro ⟨-, H⟩; iexact H))
    (hout := fun c => (show (Pipeline.scopedRest spec0 c : sProp 𝕄) ⊢ iprop(emp ∗ Pipeline.scopedRest spec0 c) from by
      iintro H; isplitr; · iempintro
      iexact H))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the program runs to the end and leaves its eight argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of _ rfl (by decide))).trans (V_main_arg0 m c),
      ((h c).2 main_arg1 (Pipeline.mem_restRefs_of _ rfl (by decide))).trans (V_main_arg1 m c),
      ((h c).2 main_arg2 (Pipeline.mem_restRefs_of _ rfl (by decide))).trans (V_main_arg2 m c),
      ((h c).2 main_arg3 (Pipeline.mem_restRefs_of _ rfl (by decide))).trans (V_main_arg3 m c),
      ((h c).2 main_arg4 (Pipeline.mem_restRefs_of _ rfl (by decide))).trans (V_main_arg4 m c),
      ((h c).2 main_arg5 (Pipeline.mem_restRefs_of _ rfl (by decide))).trans (V_main_arg5 m c),
      ((h c).2 main_arg6 (Pipeline.mem_restRefs_of _ rfl (by decide))).trans (V_main_arg6 m c),
      ((h c).2 main_arg7 (Pipeline.mem_restRefs_of _ rfl (by decide))).trans (V_main_arg7 m c)⟩) (run_main m ρ)

end Cert.Kernel.Hand

end
-- ==== Proof.EntryKI.lean ====
/-
  The program up to its one kernel launch: the buffers as the launch finds them.

  Before the launch the host slices and joins the two index rows into one list of 2·E indices, wraps the negative ones,
  gathers the 2·E table rows (filling a row whose index falls outside the table), narrows the weight matrices, cuts the
  projection into its upper and lower half and gives the two biases a unit leading axis. `V` is the contents of every
  buffer after those operations; the eight argument arrays are written by none of them, so the launch finds them as
  they were (`V_main_argK`).
-/
import proofs.«428091_j34256659153220_3_alg».proof.Proof.Gen.KernelIdeal.Launch
import proofs.«428091_j34256659153220_3_alg».proof.Proof.Gen.KernelIdeal.Skeleton
import proofs.«428091_j34256659153220_3_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the launch is reached: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to the launch: the three stretches, then the launch, holding the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.BodyKI.lean ====
/-
  The kernel body at one grid point, and what it leaves in the output window's staging buffer.

  At a grid point the body loads the nine input blocks whole (two 6000×128 blocks of gathered rows, five 128×128
  weight blocks, two 1×128 bias rows), computes, and stores one 6000×128 block: `out0_9` is that block as a function of
  the nine input blocks, the one store read back through the rectangle it covers. The body also loads the output
  buffer before storing into it; the loaded value is not used.
-/
import proofs.«428091_j34256659153220_3_alg».proof.Proof.EntryKI
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the store take a whole buffer -/

abbrev rA : Rect S6000x128 := Rect.unit (s := S6000x128) ![0, 0] S6000x128.size inb_S6000x128_S6000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- The output window's staging buffer after the body, from the nine input blocks: its one store. -/
def out0_9 (x0 : Vec F S6000x128 .f32) (x1 : Vec F S6000x128 .f32) (x2 : Vec F S128x128 .bf16) (x3 : Vec F S128x128 .bf16) (x4 : Vec F S128x128 .bf16) (x5 : Vec F S128x128 .bf16) (x6 : Vec F S1x128 .f32) (x7 : Vec F S128x128 .bf16) (x8 : Vec F S1x128 .f32) : Vec F S6000x128 .f32 :=
  View.canon [⟨rA, k0_pay1 (k0_pay2 (View.ld x0 rA) (View.ld x1 rA) (View.ld x2 rW) (View.ld x3 rW) (View.ld x4 rW) (View.ld x5 rW) (View.ld x6 rB) (View.ld x7 rW)) (View.ld x8 rB)⟩]

/-- The one store covers the buffer. -/
theorem cover0_9 (p0 : Vec F S6000x128 .f32) (y : S6000x128.Idx) :
    ∃ pc ∈ ([⟨rA, p0⟩] : List (View.Piece (Elt F) S6000x128 .f32)), y ∈ pc.1.set :=
  View.cover_of_tiled [⟨rA, p0⟩] S6000x128.size (by rfl) y

set_option maxHeartbeats 1000000 in
/-- The body on whole staging memrefs, the inputs' at contents `xW` and the output's at anything, runs to the
    continuation holding the inputs' as they were and the output's at `out0_9` of the inputs'. -/
theorem sound_kernel (c : Dev nD) (E : Set ℕ) (i : grid0.Coords) (arg1 : Memref sig .tc .vmem S6000x128 .f32) (harg1 : arg1.IsWhole) (arg2 : Memref sig .tc .vmem S6000x128 .f32) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S6000x128 .f32) (harg10 : arg10.IsWhole)
    (x0 : Vec F S6000x128 .f32) (x1 : Vec F S6000x128 .f32) (x2 : Vec F S128x128 .bf16) (x3 : Vec F S128x128 .bf16) (x4 : Vec F S128x128 .bf16) (x5 : Vec F S128x128 .bf16) (x6 : Vec F S1x128 .f32) (x7 : Vec F S128x128 .bf16) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__mha_kernel i arg1 harg1 arg2 harg2 arg3 harg3 arg4 harg4 arg5 harg5 arg6 harg6 arg7 harg7 arg8 harg8 arg9 harg9 arg10 harg10) K := by
  simp only [cc0__mha_kernel_eq_skeleton]; unfold cc0__mha_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

end Cert.KernelIdeal.Hand

end
-- ==== Proof.ObligKI.lean ====
/-
  The pipeline's proof data and the body obligation at every grid point.

  Two input windows read ONE array (the 2·E gathered rows: block t for the source rows, block 100 + t for the target
  rows), so the array's full share is dealt to them in two halves; every other window has an array of its own. Nothing
  is carried between grid points and the body uses neither scratch nor the generator register: the invariant is the
  scoped rest alone. Here: the proof data, and the body's triple at a generic grid point.
-/
import proofs.«428091_j34256659153220_3_alg».proof.Proof.BodyKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core `c`: the arrays as the launch finds them; after the body at point `t` each
    input's buffer at its block and the output's at `out0_9` of the input blocks; nothing carried, nothing owed; the
    shared array held in two halves by its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.RunKI.lean ====
/-
  The launch of the pipeline, and the frame.

  The array of gathered rows is read by two windows, so its full share is dealt to them in two halves; each of the
  other eight arrays goes whole to its one window. The body touches neither a scratch buffer nor the generator
  register, so the invariant between grid points is just the scoped rest. At the end every window's array is what the
  write-backs made of it, and every buffer that no window stages — the eight arguments among them — holds what the
  launch found, which is what the program started with.
-/
import proofs.«428091_j34256659153220_3_alg».proof.Proof.ObligKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s array, held whole at share `q` at the launch contents, is the proof data's holding of it at entry. -/
theorem arr_at (c : Dev nD) (w : Fin cfg0.W) (q : PosShare TreeShare) (hq : (dats m 0 c).share w = q) :
    ((((c.tc : Thread nD τ).loc (Pipeline.arrRef spec0 w)) ↦{q} V m c (Pipeline.arrRef spec0 w)) : sProp 𝕄)
      = (((cfg0.win w).arr.view.loc (c.tc : Thread nD τ)) ↦[(cfg0.win w).arr.view.set]{(dats m 0 c).share w} ((dats m 0 c).arrAt w 0)) := by
  rw [(arr_whole0 w).set_eq_univ, hq]; rfl

/-- The nine distinct buffers behind the ten windows' arrays, one by one. -/
theorem arrBufs_chain (Φ : Ref sig .tc → sProp 𝕄) :
    bigSep (Finset.univ.image (Pipeline.arrRef spec0)) Φ
      = iprop(Φ main_v5 ∗ Φ main_v6 ∗ Φ main_v7 ∗ Φ main_v9 ∗ Φ main_v11 ∗ Φ main_v13 ∗ Φ main_v12 ∗ Φ main_v14 ∗ Φ main_v15) :=
  bigSep_eq_bigSepL_of_eq [main_v5, main_v6, main_v7, main_v9, main_v11, main_v13, main_v12, main_v14, main_v15] (by decide) (by decide) Φ

/-- The nine buffers behind the ten windows' arrays, dealt to the windows: the gathered rows in two halves. -/
theorem arrays_deal (c : Dev nD) :
    (Pipeline.arrBufs spec0 c (V m c) : sProp 𝕄) ⊢ (dats m 0 c).arrays ((dats m 0 c).arrAt · 0) := by
  unfold Pipeline.arrBufs Dat.arrays
  rw [arrBufs_chain, bigSep_W0]
  iintro ⟨H5, H6, H7, H9, H11, H13, H12, H14, H15⟩
  ihave Hs := (pointsTo_share (PosShare.mem_left_op_right fullShare)).1 $$ H5
  icases Hs with ⟨Hl, Hr⟩
  isplitl [Hl]; · iapply (Entails.of_eq (arr_at m c 0 fullShare.left rfl)); iexact Hl
  isplitl [Hr]; · iapply (Entails.of_eq (arr_at m c 1 fullShare.right rfl)); iexact Hr
  isplitl [H6]; · iapply (Entails.of_eq (arr_at m c 2 fullShare rfl)); iexact H6
  isplitl [H7]; · iapply (Entails.of_eq (arr_at m c 3 fullShare rfl)); iexact H7
  isplitl [H9]; · iapply (Entails.of_eq (arr_at m c 4 fullShare rfl)); iexact H9
  isplitl [H11]; · iapply (Entails.of_eq (arr_at m c 5 fullShare rfl)); iexact H11
  isplitl [H13]; · iapply (Entails.of_eq (arr_at m c 6 fullShare rfl)); iexact H13
  isplitl [H12]; · iapply (Entails.of_eq (arr_at m c 7 fullShare rfl)); iexact H12
  isplitl [H14]; · iapply (Entails.of_eq (arr_at m c 8 fullShare rfl)); iexact H14
  iapply (Entails.of_eq (arr_at m c 9 fullShare rfl)); iexact H15

set_option backward.isDefEq.respectTransparency.types false in
/-- Every weakly fair execution of the program terminates; at the end every window's array is what the write-backs
    made of it and every other unscoped buffer is as the launch found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none) (hsplit := arrays_deal m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => (show iprop(emp ∗ Pipeline.scopedRest spec0 c) ⊢ (Pipeline.scopedRest spec0 c : sProp 𝕄) from by iintro ⟨-, H⟩; iexact H))
    (hout := fun c => (show (Pipeline.scopedRest spec0 c : sProp 𝕄) ⊢ iprop(emp ∗ Pipeline.scopedRest spec0 c) from by
      iintro H; isplitr; · iempintro
      iexact H))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the program runs to the end and leaves its eight argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of _ rfl (by decide))).trans (V_main_arg0 m c),
      ((h c).2 main_arg1 (Pipeline.mem_restRefs_of _ rfl (by decide))).trans (V_main_arg1 m c),
      ((h c).2 main_arg2 (Pipeline.mem_restRefs_of _ rfl (by decide))).trans (V_main_arg2 m c),
      ((h c).2 main_arg3 (Pipeline.mem_restRefs_of _ rfl (by decide))).trans (V_main_arg3 m c),
      ((h c).2 main_arg4 (Pipeline.mem_restRefs_of _ rfl (by decide))).trans (V_main_arg4 m c),
      ((h c).2 main_arg5 (Pipeline.mem_restRefs_of _ rfl (by decide))).trans (V_main_arg5 m c),
      ((h c).2 main_arg6 (Pipeline.mem_restRefs_of _ rfl (by decide))).trans (V_main_arg6 m c),
      ((h c).2 main_arg7 (Pipeline.mem_restRefs_of _ rfl (by decide))).trans (V_main_arg7 m c)⟩) (run_main m ρ)

end Cert.KernelIdeal.Hand

end
-- ==== Proof.BlocksKI.lean ====
/-
  Where each window's block sits in its array.

  Grid point t (of 100) stages rows 6000·t … 6000·t + 5999 of the first half of the gathered rows (the edges' source
  rows), the same rows of the second half (row 600000 + r is the target row of edge r), and the whole of every weight
  array; it writes rows 6000·t … 6000·t + 5999 of the result.
-/
import proofs.«428091_j34256659153220_3_alg».proof.Proof.RunKI
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The windows' block indices at grid point t: the source rows' block is t, the target rows' block 100 + t, the
    result's block t, every weight window's block the only one. -/
theorem block_indices : ∀ t : Fin cfg0.N,
    win0_0.index t (0 : Fin 2) = t.val ∧ win0_0.index t (1 : Fin 2) = 0
    ∧ win0_1.index t (0 : Fin 2) = 100 + t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem point_lt (t : Fin cfg0.N) : t.val < 100 := Nat.lt_of_lt_of_eq t.isLt N_0

/-- Row p of grid point t's source block is row 6000·t + p of its array. -/
theorem emb_src (t : Fin cfg0.N) (p : Fin 6000) (k : Fin 128) :
    (((cfg0.win 0).blk t).view.emb (ix2 p k) : S1200000x128.Idx)
      = ix2 (⟨t.val * 6000 + p.val, by have := point_lt t; have := p.isLt; omega⟩ : Fin 1200000) k := by
  obtain ⟨e0, e1, -⟩ := block_indices t
  funext a; apply Fin.ext
  match a with
  | ⟨0, _⟩ => show win0_0.index t (0 : Fin 2) * 6000 + 1 * p.val = t.val * 6000 + p.val; rw [e0]; omega
  | ⟨1, _⟩ => show win0_0.index t (1 : Fin 2) * 128 + 1 * k.val = k.val; rw [e1]; omega

/-- Row p of grid point t's target block is row 600000 + 6000·t + p of its array. -/
theorem emb_tgt (t : Fin cfg0.N) (p : Fin 6000) (k : Fin 128) :
    (((cfg0.win 1).blk t).view.emb (ix2 p k) : S1200000x128.Idx)
      = ix2 (⟨600000 + (t.val * 6000 + p.val), by have := point_lt t; have := p.isLt; omega⟩ : Fin 1200000) k := by
  obtain ⟨-, -, e0, e1, -⟩ := block_indices t
  funext a; apply Fin.ext
  match a with
  | ⟨0, _⟩ => show win0_1.index t (0 : Fin 2) * 6000 + 1 * p.val = 600000 + (t.val * 6000 + p.val); rw [e0]; omega
  | ⟨1, _⟩ => show win0_1.index t (1 : Fin 2) * 128 + 1 * k.val = k.val; rw [e1]; omega

/-- Row p of grid point t's result block is row 6000·t + p of the result. -/
theorem emb_out (t : Fin cfg0.N) (p : Fin 6000) (j : Fin 128) :
    (((cfg0.win 9).blk t).view.emb (ix2 p j) : S600000x128.Idx)
      = ix2 (⟨t.val * 6000 + p.val, by have := point_lt t; have := p.isLt; omega⟩ : Fin 600000) j := by
  obtain ⟨-, -, -, -, -, -, -, -, -, -, -, -, -, -, -, -, -, -, e0, e1⟩ := block_indices t
  funext a; apply Fin.ext
  match a with
  | ⟨0, _⟩ => show win0_9.index t (0 : Fin 2) * 6000 + 1 * p.val = t.val * 6000 + p.val; rw [e0]; omega
  | ⟨1, _⟩ => show win0_9.index t (1 : Fin 2) * 128 + 1 * j.val = j.val; rw [e1]; omega

/-- Window 2's block is its whole array at every grid point. -/
theorem emb_whole2 (t : Fin cfg0.N) (a0 : Fin 128) (a1 : Fin 128) :
    (((cfg0.win 2).blk t).view.emb (ix2 a0 a1) : S128x128.Idx) = ix2 a0 a1 := by
  obtain ⟨-, -, -, -, e0, e1, -⟩ := block_indices t
  funext a; apply Fin.ext
  match a with
  | ⟨0, _⟩ => show win0_2.index t (0 : Fin 2) * 128 + 1 * a0.val = a0.val; rw [e0]; omega
  | ⟨1, _⟩ => show win0_2.index t (1 : Fin 2) * 128 + 1 * a1.val = a1.val; rw [e1]; omega
/-- Window 3's block is its whole array at every grid point. -/
theorem emb_whole3 (t : Fin cfg0.N) (a0 : Fin 128) (a1 : Fin 128) :
    (((cfg0.win 3).blk t).view.emb (ix2 a0 a1) : S128x128.Idx) = ix2 a0 a1 := by
  obtain ⟨-, -, -, -, -, -, e0, e1, -⟩ := block_indices t
  funext a; apply Fin.ext
  match a with
  | ⟨0, _⟩ => show win0_3.index t (0 : Fin 2) * 128 + 1 * a0.val = a0.val; rw [e0]; omega
  | ⟨1, _⟩ => show win0_3.index t (1 : Fin 2) * 128 + 1 * a1.val = a1.val; rw [e1]; omega
/-- Window 4's block is its whole array at every grid point. -/
theorem emb_whole4 (t : Fin cfg0.N) (a0 : Fin 128) (a1 : Fin 128) :
    (((cfg0.win 4).blk t).view.emb (ix2 a0 a1) : S128x128.Idx) = ix2 a0 a1 := by
  obtain ⟨-, -, -, -, -, -, -, -, e0, e1, -⟩ := block_indices t
  funext a; apply Fin.ext
  match a with
  | ⟨0, _⟩ => show win0_4.index t (0 : Fin 2) * 128 + 1 * a0.val = a0.val; rw [e0]; omega
  | ⟨1, _⟩ => show win0_4.index t (1 : Fin 2) * 128 + 1 * a1.val = a1.val; rw [e1]; omega
/-- Window 5's block is its whole array at every grid point. -/
theorem emb_whole5 (t : Fin cfg0.N) (a0 : Fin 128) (a1 : Fin 128) :
    (((cfg0.win 5).blk t).view.emb (ix2 a0 a1) : S128x128.Idx) = ix2 a0 a1 := by
  obtain ⟨-, -, -, -, -, -, -, -, -, -, e0, e1, -⟩ := block_indices t
  funext a; apply Fin.ext
  match a with
  | ⟨0, _⟩ => show win0_5.index t (0 : Fin 2) * 128 + 1 * a0.val = a0.val; rw [e0]; omega
  | ⟨1, _⟩ => show win0_5.index t (1 : Fin 2) * 128 + 1 * a1.val = a1.val; rw [e1]; omega
/-- Window 6's block is its whole array at every grid point. -/
theorem emb_whole6 (t : Fin cfg0.N) (a0 : Fin 1) (a1 : Fin 128) :
    (((cfg0.win 6).blk t).view.emb (ix2 a0 a1) : S1x128.Idx) = ix2 a0 a1 := by
  obtain ⟨-, -, -, -, -, -, -, -, -, -, -, -, e0, e1, -⟩ := block_indices t
  funext a; apply Fin.ext
  match a with
  | ⟨0, _⟩ => show win0_6.index t (0 : Fin 2) * 1 + 1 * a0.val = a0.val; rw [e0]; omega
  | ⟨1, _⟩ => show win0_6.index t (1 : Fin 2) * 128 + 1 * a1.val = a1.val; rw [e1]; omega
/-- Window 7's block is its whole array at every grid point. -/
theorem emb_whole7 (t : Fin cfg0.N) (a0 : Fin 128) (a1 : Fin 128) :
    (((cfg0.win 7).blk t).view.emb (ix2 a0 a1) : S128x128.Idx) = ix2 a0 a1 := by
  obtain ⟨-, -, -, -, -, -, -, -, -, -, -, -, -, -, e0, e1, -⟩ := block_indices t
  funext a; apply Fin.ext
  match a with
  | ⟨0, _⟩ => show win0_7.index t (0 : Fin 2) * 128 + 1 * a0.val = a0.val; rw [e0]; omega
  | ⟨1, _⟩ => show win0_7.index t (1 : Fin 2) * 128 + 1 * a1.val = a1.val; rw [e1]; omega
/-- Window 8's block is its whole array at every grid point. -/
theorem emb_whole8 (t : Fin cfg0.N) (a0 : Fin 1) (a1 : Fin 128) :
    (((cfg0.win 8).blk t).view.emb (ix2 a0 a1) : S1x128.Idx) = ix2 a0 a1 := by
  obtain ⟨-, -, -, -, -, -, -, -, -, -, -, -, -, -, -, -, e0, e1, -⟩ := block_indices t
  funext a; apply Fin.ext
  match a with
  | ⟨0, _⟩ => show win0_8.index t (0 : Fin 2) * 1 + 1 * a0.val = a0.val; rw [e0]; omega
  | ⟨1, _⟩ => show win0_8.index t (1 : Fin 2) * 128 + 1 * a1.val = a1.val; rw [e1]; omega

/-! ## A block read at an index is the array read at the block's place -/

/-- Row p of the block window 0 reads at grid point t, for any contents `A` of its array. -/
theorem read_src (A : S1200000x128.Idx → EReal) (t : Fin cfg0.N) (p : Fin 6000) (k : Fin 128) :
    (((cfg0.win 0).blk t).view.read (Elt Ideal) A : S6000x128.Idx → EReal) (ix2 p k)
      = A (ix2 (⟨t.val * 6000 + p.val, by have := point_lt t; have := p.isLt; omega⟩ : Fin 1200000) k) := by
  show A (((cfg0.win 0).blk t).view.emb (ix2 p k)) = _
  rw [emb_src]

/-- Row p of the block window 1 reads at grid point t, for any contents `A` of its array. -/
theorem read_tgt (A : S1200000x128.Idx → EReal) (t : Fin cfg0.N) (p : Fin 6000) (k : Fin 128) :
    (((cfg0.win 1).blk t).view.read (Elt Ideal) A : S6000x128.Idx → EReal) (ix2 p k)
      = A (ix2 (⟨600000 + (t.val * 6000 + p.val), by have := point_lt t; have := p.isLt; omega⟩ : Fin 1200000) k) := by
  show A (((cfg0.win 1).blk t).view.emb (ix2 p k)) = _
  rw [emb_tgt]

theorem read_whole2 (A : S128x128.Idx → EReal) (t : Fin cfg0.N) (a0 : Fin 128) (a1 : Fin 128) :
    (((cfg0.win 2).blk t).view.read (Elt Ideal) A : S128x128.Idx → EReal) (ix2 a0 a1) = A (ix2 a0 a1) := by
  show A (((cfg0.win 2).blk t).view.emb (ix2 a0 a1)) = _
  rw [emb_whole2]
theorem read_whole3 (A : S128x128.Idx → EReal) (t : Fin cfg0.N) (a0 : Fin 128) (a1 : Fin 128) :
    (((cfg0.win 3).blk t).view.read (Elt Ideal) A : S128x128.Idx → EReal) (ix2 a0 a1) = A (ix2 a0 a1) := by
  show A (((cfg0.win 3).blk t).view.emb (ix2 a0 a1)) = _
  rw [emb_whole3]
theorem read_whole4 (A : S128x128.Idx → EReal) (t : Fin cfg0.N) (a0 : Fin 128) (a1 : Fin 128) :
    (((cfg0.win 4).blk t).view.read (Elt Ideal) A : S128x128.Idx → EReal) (ix2 a0 a1) = A (ix2 a0 a1) := by
  show A (((cfg0.win 4).blk t).view.emb (ix2 a0 a1)) = _
  rw [emb_whole4]
theorem read_whole5 (A : S128x128.Idx → EReal) (t : Fin cfg0.N) (a0 : Fin 128) (a1 : Fin 128) :
    (((cfg0.win 5).blk t).view.read (Elt Ideal) A : S128x128.Idx → EReal) (ix2 a0 a1) = A (ix2 a0 a1) := by
  show A (((cfg0.win 5).blk t).view.emb (ix2 a0 a1)) = _
  rw [emb_whole5]
theorem read_whole6 (A : S1x128.Idx → EReal) (t : Fin cfg0.N) (a0 : Fin 1) (a1 : Fin 128) :
    (((cfg0.win 6).blk t).view.read (Elt Ideal) A : S1x128.Idx → EReal) (ix2 a0 a1) = A (ix2 a0 a1) := by
  show A (((cfg0.win 6).blk t).view.emb (ix2 a0 a1)) = _
  rw [emb_whole6]
theorem read_whole7 (A : S128x128.Idx → EReal) (t : Fin cfg0.N) (a0 : Fin 128) (a1 : Fin 128) :
    (((cfg0.win 7).blk t).view.read (Elt Ideal) A : S128x128.Idx → EReal) (ix2 a0 a1) = A (ix2 a0 a1) := by
  show A (((cfg0.win 7).blk t).view.emb (ix2 a0 a1)) = _
  rw [emb_whole7]
theorem read_whole8 (A : S1x128.Idx → EReal) (t : Fin cfg0.N) (a0 : Fin 1) (a1 : Fin 128) :
    (((cfg0.win 8).blk t).view.read (Elt Ideal) A : S1x128.Idx → EReal) (ix2 a0 a1) = A (ix2 a0 a1) := by
  show A (((cfg0.win 8).blk t).view.emb (ix2 a0 a1)) = _
  rw [emb_whole8]

/-- Row p of grid point t's source block is row 6000·t + p of the gathered rows. -/
theorem src_block (c : Dev nD) (t : Fin cfg0.N) (p : Fin 6000) (k : Fin 128) :
    (iblk m c 0 t : S6000x128.Idx → EReal) (ix2 p k)
      = (V m c main_v5 : S1200000x128.Idx → EReal) (ix2 (⟨t.val * 6000 + p.val, by have := point_lt t; have := p.isLt; omega⟩ : Fin 1200000) k) :=
  read_src (V m c main_v5) t p k

/-- Row p of grid point t's target block is row 600000 + 6000·t + p of the gathered rows. -/
theorem tgt_block (c : Dev nD) (t : Fin cfg0.N) (p : Fin 6000) (k : Fin 128) :
    (iblk m c 1 t : S6000x128.Idx → EReal) (ix2 p k)
      = (V m c main_v5 : S1200000x128.Idx → EReal) (ix2 (⟨600000 + (t.val * 6000 + p.val), by have := point_lt t; have := p.isLt; omega⟩ : Fin 1200000) k) :=
  read_tgt (V m c main_v5) t p k

theorem whole_block2 (c : Dev nD) (t : Fin cfg0.N) (a0 : Fin 128) (a1 : Fin 128) :
    (iblk m c 2 t : S128x128.Idx → EReal) (ix2 a0 a1) = (V m c main_v6 : S128x128.Idx → EReal) (ix2 a0 a1) :=
  read_whole2 (V m c main_v6) t a0 a1
theorem whole_block3 (c : Dev nD) (t : Fin cfg0.N) (a0 : Fin 128) (a1 : Fin 128) :
    (iblk m c 3 t : S128x128.Idx → EReal) (ix2 a0 a1) = (V m c main_v7 : S128x128.Idx → EReal) (ix2 a0 a1) :=
  read_whole3 (V m c main_v7) t a0 a1
theorem whole_block4 (c : Dev nD) (t : Fin cfg0.N) (a0 : Fin 128) (a1 : Fin 128) :
    (iblk m c 4 t : S128x128.Idx → EReal) (ix2 a0 a1) = (V m c main_v9 : S128x128.Idx → EReal) (ix2 a0 a1) :=
  read_whole4 (V m c main_v9) t a0 a1
theorem whole_block5 (c : Dev nD) (t : Fin cfg0.N) (a0 : Fin 128) (a1 : Fin 128) :
    (iblk m c 5 t : S128x128.Idx → EReal) (ix2 a0 a1) = (V m c main_v11 : S128x128.Idx → EReal) (ix2 a0 a1) :=
  read_whole5 (V m c main_v11) t a0 a1
theorem whole_block6 (c : Dev nD) (t : Fin cfg0.N) (a0 : Fin 1) (a1 : Fin 128) :
    (iblk m c 6 t : S1x128.Idx → EReal) (ix2 a0 a1) = (V m c main_v13 : S1x128.Idx → EReal) (ix2 a0 a1) :=
  read_whole6 (V m c main_v13) t a0 a1
theorem whole_block7 (c : Dev nD) (t : Fin cfg0.N) (a0 : Fin 128) (a1 : Fin 128) :
    (iblk m c 7 t : S128x128.Idx → EReal) (ix2 a0 a1) = (V m c main_v12 : S128x128.Idx → EReal) (ix2 a0 a1) :=
  read_whole7 (V m c main_v12) t a0 a1
theorem whole_block8 (c : Dev nD) (t : Fin cfg0.N) (a0 : Fin 1) (a1 : Fin 128) :
    (iblk m c 8 t : S1x128.Idx → EReal) (ix2 a0 a1) = (V m c main_v14 : S1x128.Idx → EReal) (ix2 a0 a1) :=
  read_whole8 (V m c main_v14) t a0 a1

end Cert.KernelIdeal.Hand

end
-- ==== Proof.Spec.lean ====
/-
  One edge of the gated message layer, as a function of its two endpoint rows, over the extended reals.

  For an edge with source row `s` and target row `t` (128 features each):
    gate(x, W)_j   = logistic (∑ₖ xₖ · W[k, j]) · x_j                 the row gated by a sigmoid of its own projection
    hidden_k       = max ((∑ₗ gate(s, Ws)ₗ · Ps[l, k] + ∑ₗ gate(t, Wt)ₗ · Pt[l, k]) + bp_k) 0
    out_j          = ∑ₖ hidden_k · M[k, j] + bm_j
  `Ps` and `Pt` are the upper and the lower half of the 256 × 128 projection: contracting the concatenated row
  `[gate s ‖ gate t]` with the whole projection is the sum of the two half contractions (`sum_halves`), a regrouping of
  a finite sum that holds in any commutative additive monoid, so at the infinities too.
-/
import Idealize.ShloMosaic.PureOps.Ideal
import Mathlib.Algebra.BigOperators.Fin

noncomputable section

namespace Cert.Spec

open Idealize.ShloMosaic

/-- A row gated by the sigmoid of its own projection through `W`. -/
def gate (x : Fin 128 → EReal) (W : Fin 128 → Fin 128 → EReal) (j : Fin 128) : EReal :=
  Ideal.logistic (∑ k : Fin 128, x k * W k j) * x j

/-- The hidden row: both gated rows projected, the bias added, the negative part cut off (`z` is the zero the cut compares with). -/
def hidden (s t : Fin 128 → EReal) (Ws Wt Ps Pt : Fin 128 → Fin 128 → EReal) (bp : Fin 128 → EReal) (z : EReal) (k : Fin 128) : EReal :=
  max ((∑ l : Fin 128, gate s Ws l * Ps l k + ∑ l : Fin 128, gate t Wt l * Pt l k) + bp k) z

/-- The edge's output row. -/
def edge (s t : Fin 128 → EReal) (Ws Wt Ps Pt : Fin 128 → Fin 128 → EReal) (bp : Fin 128 → EReal) (z : EReal)
    (M : Fin 128 → Fin 128 → EReal) (bm : Fin 128 → EReal) (j : Fin 128) : EReal :=
  (∑ k : Fin 128, hidden s t Ws Wt Ps Pt bp z k * M k j) + bm j

/-- Place `l` of the upper half of 256 places. -/
def upper (l : Fin 128) : Fin 256 := ⟨l.val, by have := l.isLt; omega⟩
/-- Place `l` of the lower half of 256 places. -/
def lower (l : Fin 128) : Fin 256 := ⟨128 + l.val, by have := l.isLt; omega⟩

/-- A sum over 256 places is the sum over the upper 128 plus the sum over the lower 128. -/
theorem sum_halves {M : Type*} [AddCommMonoid M] (f : Fin 256 → M) :
    ∑ k : Fin 256, f k = ∑ l : Fin 128, f (upper l) + ∑ l : Fin 128, f (lower l) :=
  Fin.sum_univ_add (a := 128) (b := 128) f

end Cert.Spec

end
-- ==== Proof.PayEdge.lean ====
import proofs.«428091_j34256659153220_3_alg».proof.Proof.Spec
import proofs.«428091_j34256659153220_3_alg».proof.Proof.Gen.KernelIdeal.Skeleton
import Idealize.ShloMosaic.Lib.ValueIdx
import Idealize.ShloMosaic.Lib.ValueLayout
import Idealize.ShloMosaic.PureOps.Ideal.Laws
noncomputable section

namespace Cert.KernelIdeal.Hand
open Cert.KernelIdeal Cert.KernelIdeal.Gen Idealize.ShloMosaic Idealize.ShloMosaic.ValueIdx

/-! # The kernel body's arithmetic at one entry

The body turns a block of 6000 source rows and a block of 6000 target rows (128 features each) into a block of 6000 output
rows. Every step is either entrywise (a format change, which at the extended reals is the identity; a sigmoid; a product, a
sum or a maximum of two blocks; a bias row repeated down the block; a zero repeated everywhere) or a contraction with a
128 × 128 matrix. So row `p` of the result depends on row `p` of the two input blocks only, and entry `(p, j)` is

  ∑ₖ max ((∑ₗ σ(∑ₘ sₘ·Ws[m,l])·sₗ·Ps[l,k] + ∑ₗ σ(∑ₘ tₘ·Wt[m,l])·tₗ·Pt[l,k]) + bp_k) 0 · M[k,j] + bm_j,

with `s`, `t` the two rows: the edge function of the specification. No sum is regrouped here; each operation is only read at
an index. -/

/-! The contraction of a 6000 × 128 block with a 128 × 128 matrix, `out[p, j] = ∑ₖ l[p, k] · w[k, j]`: the left operand is
read at the output's row and the contracted place, the right operand at the contracted place and the output's column. The
four statements below say this one axis at a time. -/

/-- The left operand's row is the output's row. -/
theorem lhs_row (i : S6000x128.Idx) (q : dot_S6000x128_S128x128_S6000x128_1_0_0_1_n_n.contr.Idx) :
    (dot_S6000x128_S128x128_S6000x128_1_0_0_1_n_n.lhsIdx i q 0).val = (i 0).val := by
  unfold DotDims.lhsIdx
  rw [dif_neg (show ¬(0 : Fin S6000x128.rank) ∈ dot_S6000x128_S128x128_S6000x128_1_0_0_1_n_n.lhsBatch by decide),
    dif_pos (show (0 : Fin S6000x128.rank) ∈ dot_S6000x128_S128x128_S6000x128_1_0_0_1_n_n.lhsNonContracting by decide)]
  rfl

/-- The left operand's column is the contracted place. -/
theorem lhs_col (i : S6000x128.Idx) (q : dot_S6000x128_S128x128_S6000x128_1_0_0_1_n_n.contr.Idx) :
    (dot_S6000x128_S128x128_S6000x128_1_0_0_1_n_n.lhsIdx i q 1).val = (q ⟨0, by decide⟩).val :=
  dot_S6000x128_S128x128_S6000x128_1_0_0_1_n_n.lhsIdx_val_of_single rfl i q

/-- The right operand's row is the contracted place. -/
theorem rhs_row (i : S6000x128.Idx) (q : dot_S6000x128_S128x128_S6000x128_1_0_0_1_n_n.contr.Idx) :
    (dot_S6000x128_S128x128_S6000x128_1_0_0_1_n_n.rhsIdx i q 0).val = (q ⟨0, by decide⟩).val :=
  dot_S6000x128_S128x128_S6000x128_1_0_0_1_n_n.rhsIdx_val_of_single rfl i q

/-- The right operand's column is the output's column. -/
theorem rhs_col (i : S6000x128.Idx) (q : dot_S6000x128_S128x128_S6000x128_1_0_0_1_n_n.contr.Idx) :
    (dot_S6000x128_S128x128_S6000x128_1_0_0_1_n_n.rhsIdx i q 1).val = (i 1).val := by
  unfold DotDims.rhsIdx
  rw [dif_neg (show ¬(1 : Fin S128x128.rank) ∈ dot_S6000x128_S128x128_S6000x128_1_0_0_1_n_n.rhsBatch by decide),
    dif_pos (show (1 : Fin S128x128.rank) ∈ dot_S6000x128_S128x128_S6000x128_1_0_0_1_n_n.rhsNonContracting by decide)]
  rfl

/-- A product into a zero accumulator, read at row `p` and column `j`, is the plain sum over the 128 contracted places:
the sum over the one-axis contraction index is carried to a sum over `Fin 128` along the bijection that reads the axis. -/
theorem matmul_row {φ₁ φ₂ : FTy} (l : FVec Ideal S6000x128 φ₁) (w : FVec Ideal S128x128 φ₂) (p : Fin 6000) (j : Fin 128) :
    matmul (F := Ideal) dot_S6000x128_S128x128_S6000x128_1_0_0_1_n_n none l w (constant (F := Ideal) S6000x128 .f32 0x00000000#32) (ix2 p j)
      = ∑ k : Fin 128, l (ix2 p k) * w (ix2 k j) := by
  refine (Ideal.matmul_constant_zero_apply dot_S6000x128_S128x128_S6000x128_1_0_0_1_n_n none l w (ix2 p j)).trans ?_
  rw [← Equiv.sum_comp (contrEquiv1 dot_S6000x128_S128x128_S6000x128_1_0_0_1_n_n 128 rfl rfl).symm]
  refine Finset.sum_congr rfl fun k _ => ?_
  have hk := contrEquiv1_symm_val dot_S6000x128_S128x128_S6000x128_1_0_0_1_n_n 128 rfl rfl k
  have el : dot_S6000x128_S128x128_S6000x128_1_0_0_1_n_n.lhsIdx (ix2 p j) ((contrEquiv1 dot_S6000x128_S128x128_S6000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S6000x128_S128x128_S6000x128_1_0_0_1_n_n.rhsIdx (ix2 p j) ((contrEquiv1 dot_S6000x128_S128x128_S6000x128_1_0_0_1_n_n 128 rfl rfl).symm k) = ix2 k j :=
    funext fun a => Fin.ext (by
      match a with
      | ⟨0, _⟩ => exact (rhs_row _ _).trans hk
      | ⟨1, _⟩ => exact rhs_col _ _)
  rw [el, er]

/-- The sigmoid of a block is taken entry by entry. -/
theorem logistic_apply {s : Shape} {φ : FTy} (a : FVec Ideal s φ) (i : s.Idx) :
    logistic (F := Ideal) a i = Ideal.logistic (a i) := rfl

/-- Entry `(p, j)` of the body's result is the edge function of rows `p` of the two input blocks, at column `j`. -/
theorem pay_apply (v0 v2 : Vec Ideal S6000x128 .f32) (v6 v10 v18 v21 : Vec Ideal S128x128 .bf16) (v25 : Vec Ideal S1x128 .f32)
    (v32 : Vec Ideal S128x128 .bf16) (v35 : Vec Ideal S1x128 .f32) (p : Fin 6000) (j : Fin 128) :
    k0_pay1 (F := Ideal) (k0_pay2 (F := Ideal) v0 v2 v6 v10 v18 v21 v25 v32) v35 (ix2 p j)
      = Cert.Spec.edge (fun k => v0 (ix2 p k)) (fun k => v2 (ix2 p k))
          (fun k j => v6 (ix2 k j)) (fun k j => v10 (ix2 k j)) (fun l k => v18 (ix2 l k)) (fun l k => v21 (ix2 l k))
          (fun k => v25 (ix2 (0 : Fin 1) k)) (Ideal.ofBits .f32 0x00000000#32) (fun k j => v32 (ix2 k j)) (fun j => v35 (ix2 (0 : Fin 1) j)) j := by
  -- Both payloads are chains of entrywise operations around five contractions; recasting a block to its own shape is
  -- the identity and drops out.
  unfold k0_pay1 k0_pay2
  simp only [shapeCast_self]
  -- Outermost: the last contraction plus the second bias row; at `(p, j)` that is a sum over the hidden place `k` plus
  -- the bias at column `j`.
  rw [addf_apply, matmul_row, broadcastTo_1b_ab_apply]
  -- Under that sum the hidden block is read at `(p, k)`: the maximum with zero, the first bias row, the sum of the two
  -- projections (each a contraction over `l`), and inside them the gated rows, sigmoid of a contraction over `m` times
  -- the row itself. Each is read entry by entry, each contraction as its sum.
  simp only [truncf_apply, maximumf_apply, addf_apply, matmul_row, broadcastTo_1b_ab_apply, mulf_apply, broadcast_apply,
    logistic_apply]
  -- What remains is the edge function with `edge`, `hidden` and `gate` written out, term for term.
  rfl
end Cert.KernelIdeal.Hand
end
-- ==== Proof.ValueKI.lean ====
/-
  The kernel's result array, index by index.

  Row p of what grid point t writes is the edge function of row p of its two row blocks, which are rows 6000·t + p and
  600000 + 6000·t + p of the gathered rows; so the result array at (r, j) is the edge function of rows r and
  600000 + r of the gathered rows, at j. The point that writes row r is r / 6000, and every row has one.
-/
import proofs.«428091_j34256659153220_3_alg».proof.Proof.BlocksKI
import proofs.«428091_j34256659153220_3_alg».proof.Proof.PayEdge

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem origin2 : (![0, 0] : Fin 2 → Nat) = fun _ => 0 := funext fun a => by fin_cases a <;> rfl

/-- Row p of the block the result window writes at grid point t, for any contents `G` of the result array. -/
theorem read_out (G : S600000x128.Idx → EReal) (t : Fin cfg0.N) (p : Fin 6000) (j : Fin 128) :
    (((cfg0.win 9).blk t).view.read (Elt Ideal) G : S6000x128.Idx → EReal) (ix2 p j)
      = G (ix2 (⟨t.val * 6000 + p.val, by have := point_lt t; have := p.isLt; omega⟩ : Fin 600000) j) := by
  show G (((cfg0.win 9).blk t).view.emb (ix2 p j)) = _
  rw [emb_out]

/-- Row r of the result, at column j: the edge function of rows r and 600000 + r of the gathered rows and of the
    weight arrays as the launch finds them. -/
def GkRow (c : Dev nD) (r : Nat) (hr : r < 600000) (j : Fin 128) : EReal :=
  Cert.Spec.edge
    (fun k => (V m c main_v5 : S1200000x128.Idx → EReal) (ix2 (⟨r, by omega⟩ : Fin 1200000) k))
    (fun k => (V m c main_v5 : S1200000x128.Idx → EReal) (ix2 (⟨600000 + r, by omega⟩ : Fin 1200000) k))
    (fun k j => (V m c main_v6 : S128x128.Idx → EReal) (ix2 k j)) (fun k j => (V m c main_v7 : S128x128.Idx → EReal) (ix2 k j))
    (fun l k => (V m c main_v9 : S128x128.Idx → EReal) (ix2 l k)) (fun l k => (V m c main_v11 : S128x128.Idx → EReal) (ix2 l k))
    (fun k => (V m c main_v13 : S1x128.Idx → EReal) (ix2 (0 : Fin 1) k)) (Ideal.ofBits .f32 0x00000000#32)
    (fun k j => (V m c main_v12 : S128x128.Idx → EReal) (ix2 k j)) (fun j => (V m c main_v14 : S1x128.Idx → EReal) (ix2 (0 : Fin 1) j))
    j

/-- The result array as one function of the arrays the launch finds. -/
def Gk (c : Dev nD) : S600000x128.Idx → EReal := fun i => GkRow m c (i 0).val (idx2_lt0 i) (⟨(i 1).val, idx2_lt1 i⟩ : Fin 128)

theorem Gk_at (c : Dev nD) (r : Nat) (hr : r < 600000) (j : Fin 128) : Gk m c (ix2 (⟨r, hr⟩ : Fin 600000) j) = GkRow m c r hr j := rfl

/-- What grid point t writes back is block t of `Gk`. -/
theorem flushed_eq (c : Dev nD) (t : Fin cfg0.N) :
    (dats m 0 c).flushed 9 t = ((cfg0.win 9).blk t).view.read (Elt Ideal) (Gk m c) := by
  show (cfg0.win 9).cut (grid0.coords t) ((dats m 0 c).after 9 t) = _
  rw [after0_9]
  unfold out0_9
  rw [View.canon_unit_zero origin2]
  simp only [View.ld_unit_zero (S := S6000x128) origin2, View.ld_unit_zero (S := S128x128) origin2, View.ld_unit_zero (S := S1x128) origin2]
  funext y
  obtain ⟨p, j, rfl⟩ : ∃ (p : Fin 6000) (j : Fin 128), y = ix2 p j := ⟨y 0, y 1, eq_ix2 y⟩
  refine (pay_apply (iblk m c 0 t) (iblk m c 1 t) (iblk m c 2 t) (iblk m c 3 t) (iblk m c 4 t) (iblk m c 5 t) (iblk m c 6 t) (iblk m c 7 t) (iblk m c 8 t) p j).trans ?_
  rw [read_out, Gk_at]
  unfold GkRow
  simp only [src_block, tgt_block, whole_block2, whole_block3, whole_block4, whole_block5, whole_block6, whole_block7, whole_block8]

/-- An index of the result array is in grid point t's block iff its row is among the block's 6000 rows. -/
theorem mem_block (t : Fin cfg0.N) (i : S600000x128.Idx) :
    i ∈ ((cfg0.win 9).blk t).view.set ↔ ∀ a : Fin 2, win0_9.index t a * S6000x128.size a ≤ (i a).val ∧ (i a).val < win0_9.index t a * S6000x128.size a + S6000x128.size a := by
  show i ∈ ((View.whole main_v15).slice (win0_9.rect t)).set ↔ _
  rw [View.set_slice_whole, Rect.mem_set_unit]
  exact Iff.rfl

/-- Every index of the result array is written by the grid point r / 6000 of its row r. -/
theorem covered (i : S600000x128.Idx) : ∃ t : Fin cfg0.N, (cfg0.win 9).flush t = true ∧ i ∈ ((cfg0.win 9).blk t).view.set := by
  have hr : (i 0).val < 600000 := idx2_lt0 i
  have hc : (i 1).val < 128 := idx2_lt1 i
  let t : Fin cfg0.N := ⟨(i 0).val / 6000, by rw [show cfg0.N = 100 from N_0]; omega⟩
  refine ⟨t, flush0_9 t, ?_⟩
  rw [mem_block]
  obtain ⟨-, -, -, -, -, -, -, -, -, -, -, -, -, -, -, -, -, -, e0, e1⟩ := block_indices t
  intro a
  match a with
  | ⟨0, _⟩ =>
    show win0_9.index t (0 : Fin 2) * 6000 ≤ (i 0).val ∧ (i 0).val < win0_9.index t (0 : Fin 2) * 6000 + 6000
    rw [e0]; show (i 0).val / 6000 * 6000 ≤ (i 0).val ∧ (i 0).val < (i 0).val / 6000 * 6000 + 6000; omega
  | ⟨1, _⟩ =>
    show win0_9.index t (1 : Fin 2) * 128 ≤ (i 1).val ∧ (i 1).val < win0_9.index t (1 : Fin 2) * 128 + 128
    rw [e1]; omega

/-- The result array after the run is `Gk`. -/
theorem final (c : Dev nD) : (dats m 0 c).arrAt 9 cfg0.N = Gk m c :=
  (dats m 0 c).arrAt_eq_of_cover 9 (Gk m c) (fun t _ => flushed_eq m c t) (covered)

/-- The run, read: the result buffer ends at `Gk`, the eight arguments as they were. -/
theorem run_value : θ_run defs (onTc (τ := τ) (main (F := Ideal))) ⟨m, fun _ => 0, ρ⟩ (fun r => ∀ c : Dev nD,
      r.2.mem ((c.tc : Thread nD τ).loc main_v15) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 9).trans (final m c),
      ((h c).2 main_arg0 (Pipeline.mem_restRefs_of _ rfl (by decide))).trans (V_main_arg0 m c),
      ((h c).2 main_arg1 (Pipeline.mem_restRefs_of _ rfl (by decide))).trans (V_main_arg1 m c),
      ((h c).2 main_arg2 (Pipeline.mem_restRefs_of _ rfl (by decide))).trans (V_main_arg2 m c),
      ((h c).2 main_arg3 (Pipeline.mem_restRefs_of _ rfl (by decide))).trans (V_main_arg3 m c),
      ((h c).2 main_arg4 (Pipeline.mem_restRefs_of _ rfl (by decide))).trans (V_main_arg4 m c),
      ((h c).2 main_arg5 (Pipeline.mem_restRefs_of _ rfl (by decide))).trans (V_main_arg5 m c),
      ((h c).2 main_arg6 (Pipeline.mem_restRefs_of _ rfl (by decide))).trans (V_main_arg6 m c),
      ((h c).2 main_arg7 (Pipeline.mem_restRefs_of _ rfl (by decide))).trans (V_main_arg7 m c)⟩) (run_main m ρ)

end Cert.KernelIdeal.Hand

end
-- ==== Proof.HostWeights.lean ====
/-
  The weight arrays as the kernel's windows find them.

  Before the launch each weight argument is rewritten into the array a window reads: the two gate matrices and the
  output matrix are narrowed to bf16; the 256 × 128 projection is cut into its upper and its lower 128 rows and each
  half is narrowed; the two bias vectors of 128 entries get a unit leading axis. Over the extended reals a narrowing
  changes nothing, a cut of rows `o … o + 127` read at row `l` is the matrix read at row `o + l`, and a `1 × 128`
  view of a vector read at `(0, k)` is the vector read at `k`. So every such array, read at an index, is the argument
  read at the corresponding index: the seven facts below.
-/
import proofs.«428091_j34256659153220_3_alg».proof.Proof.EntryKI
import proofs.«428091_j34256659153220_3_alg».proof.Proof.Spec
import Idealize.ShloMosaic.Lib.ValueIdx
import Idealize.ShloMosaic.Lib.ValueLayout
import Idealize.ShloMosaic.Lib.StableHlo.Run
noncomputable section

namespace Cert.KernelIdeal.Hand
open Cert.KernelIdeal Cert.KernelIdeal.Gen Idealize.ShloMosaic Idealize.ShloMosaic.TcCoe Idealize.ShloMosaic.ValueIdx Idealize.SL.Sem
variable (m : (ℓ : Loc nD τ sig) → Buf (Elt Ideal) ℓ) (c : Dev nD)

/-- The source gate's matrix: argument 2 narrowed, which over the extended reals is argument 2. -/
theorem V_wsrc (k j : Fin 128) : (V m c main_v6 : S128x128.Idx → EReal) (ix2 k j) = (m ((c.tc : Thread nD τ).loc main_arg2) : S128x128.Idx → EReal) (ix2 k j) := by
  have e : (V m c main_v6 : S128x128.Idx → EReal) = (m ((c.tc : Thread nD τ).loc main_arg2) : S128x128.Idx → EReal) := by
    dsimp only [V]
    simp only [hostOps0, hostOps0_1, hostOps0_2, List.flatten_cons, List.flatten_nil, List.append_nil, List.cons_append, List.nil_append]
    after_results
    rfl
  exact congrFun e (ix2 k j)

/-- The target gate's matrix: argument 3 narrowed, which over the extended reals is argument 3. -/
theorem V_wtgt (k j : Fin 128) : (V m c main_v7 : S128x128.Idx → EReal) (ix2 k j) = (m ((c.tc : Thread nD τ).loc main_arg3) : S128x128.Idx → EReal) (ix2 k j) := by
  have e : (V m c main_v7 : S128x128.Idx → EReal) = (m ((c.tc : Thread nD τ).loc main_arg3) : S128x128.Idx → EReal) := by
    dsimp only [V]
    simp only [hostOps0, hostOps0_1, hostOps0_2, List.flatten_cons, List.flatten_nil, List.append_nil, List.cons_append, List.nil_append]
    after_results
    rfl
  exact congrFun e (ix2 k j)

/-- The source half of the projection: rows `0 … 127` of argument 4, narrowed; row `l` of it is row `l` of the whole. -/
theorem V_projs (l k : Fin 128) : (V m c main_v9 : S128x128.Idx → EReal) (ix2 l k) = (m ((c.tc : Thread nD τ).loc main_arg4) : S256x128.Idx → EReal) (ix2 (Cert.Spec.upper l) k) := by
  have e : (V m c main_v9 : S128x128.Idx → EReal)
      = extractStridedSlice S128x128 ![0, 0] (m ((c.tc : Thread nD τ).loc main_arg4) : S256x128.Idx → EReal) Gen.slices_S256x128_S128x128_0_0 := by
    dsimp only [V]
    simp only [hostOps0, hostOps0_1, hostOps0_2, List.flatten_cons, List.flatten_nil, List.append_nil, List.cons_append, List.nil_append]
    after_results
    rfl
  rw [e]
  exact slice2_axis0_apply 0 _ Gen.slices_S256x128_S128x128_0_0 l k (Cert.Spec.upper l) (by show l.val = 0 + l.val; omega)

/-- The target half of the projection: rows `128 … 255` of argument 4, narrowed; row `l` of it is row `128 + l` of the whole. -/
theorem V_projt (l k : Fin 128) : (V m c main_v11 : S128x128.Idx → EReal) (ix2 l k) = (m ((c.tc : Thread nD τ).loc main_arg4) : S256x128.Idx → EReal) (ix2 (Cert.Spec.lower l) k) := by
  have e : (V m c main_v11 : S128x128.Idx → EReal)
      = extractStridedSlice S128x128 ![128, 0] (m ((c.tc : Thread nD τ).loc main_arg4) : S256x128.Idx → EReal) Gen.slices_S256x128_S128x128_128_0 := by
    dsimp only [V]
    simp only [hostOps0, hostOps0_1, hostOps0_2, List.flatten_cons, List.flatten_nil, List.append_nil, List.cons_append, List.nil_append]
    after_results
    rfl
  rw [e]
  exact slice2_axis0_apply 128 _ Gen.slices_S256x128_S128x128_128_0 l k (Cert.Spec.lower l) rfl

/-- The projection's bias: argument 5 seen as one row of 128 entries. -/
theorem V_bproj (k : Fin 128) : (V m c main_v13 : S1x128.Idx → EReal) (ix2 (0 : Fin 1) k) = (m ((c.tc : Thread nD τ).loc main_arg5) : S128.Idx → EReal) (ix1 k) := by
  have e : (V m c main_v13 : S1x128.Idx → EReal)
      = shapeCast S1x128 (m ((c.tc : Thread nD τ).loc main_arg5) : S128.Idx → EReal) Gen.shapeCasts_S128_S1x128 := by
    dsimp only [V]
    simp only [hostOps0, hostOps0_1, hostOps0_2, List.flatten_cons, List.flatten_nil, List.append_nil, List.cons_append, List.nil_append]
    after_results
    rfl
  rw [e]
  exact shapeCast_a_1a_apply _ Gen.shapeCasts_S128_S1x128 (0 : Fin 1) k

/-- The output matrix: argument 6 narrowed, which over the extended reals is argument 6. -/
theorem V_wmlp (k j : Fin 128) : (V m c main_v12 : S128x128.Idx → EReal) (ix2 k j) = (m ((c.tc : Thread nD τ).loc main_arg6) : S128x128.Idx → EReal) (ix2 k j) := by
  have e : (V m c main_v12 : S128x128.Idx → EReal) = (m ((c.tc : Thread nD τ).loc main_arg6) : S128x128.Idx → EReal) := by
    dsimp only [V]
    simp only [hostOps0, hostOps0_1, hostOps0_2, List.flatten_cons, List.flatten_nil, List.append_nil, List.cons_append, List.nil_append]
    after_results
    rfl
  exact congrFun e (ix2 k j)

/-- The output bias: argument 7 seen as one row of 128 entries. -/
theorem V_bmlp (k : Fin 128) : (V m c main_v14 : S1x128.Idx → EReal) (ix2 (0 : Fin 1) k) = (m ((c.tc : Thread nD τ).loc main_arg7) : S128.Idx → EReal) (ix1 k) := by
  have e : (V m c main_v14 : S1x128.Idx → EReal)
      = shapeCast S1x128 (m ((c.tc : Thread nD τ).loc main_arg7) : S128.Idx → EReal) Gen.shapeCasts_S128_S1x128 := by
    dsimp only [V]
    simp only [hostOps0, hostOps0_1, hostOps0_2, List.flatten_cons, List.flatten_nil, List.append_nil, List.cons_append, List.nil_append]
    after_results
    rfl
  rw [e]
  exact shapeCast_a_1a_apply _ Gen.shapeCasts_S128_S1x128 (0 : Fin 1) k
end Cert.KernelIdeal.Hand
end
-- ==== Proof.LibGatherRows.lean ====
import Idealize.ShloMosaic.PureOps
import Idealize.ShloMosaic.Lib.ValueIdx
noncomputable section

namespace Cert.LibGatherRows
open Idealize.ShloMosaic Idealize.ShloMosaic.ValueIdx

/-! ## Gathering whole rows of a table

A table `x : [N, C]` is gathered by a column of index words `idx : [M, 1]`: the dimension numbers collapse the
table's axis 0 and let the one component of each start index address it, keep the table's axis 1 whole as the
result's offset axis 1, and have no batching axes. Result element `(r, k)` is then the table at `(row, k)`, where
`row` is the `r`-th index word read as a signed integer and clamped into `[0, N − 1]`.

The operand index of a gather is, on each operand axis, a clamped start plus a batching coordinate plus an offset
coordinate. For these dimension numbers the three summands are computed one by one below: on axis 0 the start is the
clamped index word and the other two vanish (the axis is collapsed); on axis 1 the start and the batching coordinate
vanish (the axis is not addressed by the start index) and the offset coordinate is the result's column. -/

section Rows
variable {α : Type}

/-- The dimension numbers of a row gather, for a table `[N, C]`, start indices `[M, 1]` and a result `[M, C]`. -/
abbrev rowsDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N M C w : Nat}
  (wf : GatherDims.WF ⟨2, ![N, C]⟩ ⟨2, ![M, 1]⟩ ⟨2, ![M, C]⟩ [1] [0] [] [0] [] 1 ![1, C])

/-- There are no batching axes, so the batching coordinate is zero on both table axes. -/
theorem rows_batch (j : (⟨2, ![M, C]⟩ : Shape).Idx) (a : Fin 2) : (rowsDims N M C wf).batchCoord j a = 0 :=
  GatherDims.batchCoord_eq_zero _ _ _ List.not_mem_nil

/-- Axis 0 of the table is collapsed: it is not among the kept axes, so its offset coordinate is zero. -/
theorem rows_off0 (j : (⟨2, ![M, C]⟩ : Shape).Idx) : (rowsDims N M C wf).offCoord j 0 = 0 :=
  GatherDims.offCoord_eq_zero _ _ _ fun h => ((GatherDims.mem_sKept _ _).1 h).1 (List.mem_singleton.2 rfl)

/-- Axis 1 of the table is not addressed by the start index, so the slice starts at column zero. -/
theorem rows_start1 (j : (⟨2, ![M, C]⟩ : Shape).Idx) (idx : IVec ⟨2, ![M, 1]⟩ w) :
    (rowsDims N M C wf).start j idx 1 = 0 := by
  unfold GatherDims.start
  exact dif_neg (show (1 : Fin 2) ∉ [0] by decide)

/-- Axis 1 is the only kept axis of the table, in position 0, and the result's offset axis in that position is its
    axis 1: the offset coordinate is the result's column. -/
theorem rows_off1 (j : (⟨2, ![M, C]⟩ : Shape).Idx) : (rowsDims N M C wf).offCoord j 1 = (j 1).val := by
  unfold GatherDims.offCoord
  rw [dif_pos ((GatherDims.mem_sKept _ _).2 ⟨show (1 : Fin 2) ∉ [0] by decide, List.not_mem_nil⟩)]
  rfl

/-- Axis 0 is component 0 of the start index. That component is read at the start-indices position
    `(j 0, 0)` — the result's batch coordinate, and 0 on the index vector's axis —, signed, and clamped to
    `N − 1` (the table's extent less the slice size 1). -/
theorem rows_start0 (j : (⟨2, ![M, C]⟩ : Shape).Idx) (idx : IVec ⟨2, ![M, 1]⟩ w) :
    (rowsDims N M C wf).start j idx 0 = min (idx (ix2 (j 0) (0 : Fin 1))).toInt.toNat (N - 1) := by
  unfold GatherDims.start
  rw [dif_pos (List.mem_singleton.2 rfl)]
  have hsi : (rowsDims N M C wf).siIdx j ⟨List.idxOf (0 : Fin 2) (rowsDims N M C wf).startIndexMap,
      List.idxOf_lt_length_iff.2 (List.mem_singleton.2 rfl)⟩ = ix2 (j 0) (0 : Fin 1) := by
    funext b
    refine Fin.ext ?_
    match b with
    | ⟨0, _⟩ => rfl
    | ⟨1, _⟩ => rfl
  rw [hsi]
  rfl

/-- The row gather with its dimension numbers written out, read at `(r, k)`. -/
theorem rows_apply (hN : 0 < N) (x : (⟨2, ![N, C]⟩ : Shape).Idx → α) (idx : IVec ⟨2, ![M, 1]⟩ w)
    (r : Fin M) (k : Fin C) :
    Host.gather (rowsDims N M C wf) x idx (ix2 r k)
      = x (ix2 (⟨min (idx (ix2 r (0 : Fin 1))).toInt.toNat (N - 1), by omega⟩ : Fin N) k) := by
  unfold Host.gather
  refine congrArg x (funext fun a => Fin.ext ?_)
  match a with
  | ⟨0, _⟩ =>
    show (rowsDims N M C wf).start (ix2 r k) idx 0 + (rowsDims N M C wf).batchCoord (ix2 r k) 0
      + (rowsDims N M C wf).offCoord (ix2 r k) 0 = _
    rw [rows_start0, rows_batch, rows_off0]
    rfl
  | ⟨1, _⟩ =>
    show (rowsDims N M C wf).start (ix2 r k) idx 1 + (rowsDims N M C wf).batchCoord (ix2 r k) 1
      + (rowsDims N M C wf).offCoord (ix2 r k) 1 = _
    rw [rows_start1, rows_batch, rows_off1]
    show 0 + 0 + k.val = k.val
    omega

end Rows

/-- A gather that takes whole rows of an `N × C` table, one row per index word (dimension numbers: offset axis 1,
    collapsed axis 0, start index map `[0]`, index vector axis 1, slice sizes `[1, C]`, no batching axes), reads at
    `(r, k)` the table at `(row, k)`, where `row` is the `r`-th index word read as a signed integer and clamped into
    `[0, N − 1]`. The dimension numbers are given by equations on the record's fields; once the fields are replaced by
    these literals the record is the one of `rows_apply`. -/
theorem gather_rows_apply {N M C w : Nat} {α : Type} (d : GatherDims ⟨2, ![N, C]⟩ ⟨2, ![M, 1]⟩ ⟨2, ![M, C]⟩)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, C]) (hN : 0 < N)
    (x : (⟨2, ![N, C]⟩ : Shape).Idx → α) (idx : IVec ⟨2, ![M, 1]⟩ w) (r : Fin M) (k : Fin C) :
    Host.gather d x idx (ix2 r k)
      = x (ix2 (⟨min (idx (ix2 r (0 : Fin 1))).toInt.toNat (N - 1), by omega⟩ : Fin N) k) := by
  obtain ⟨od, cd, ob, sb, sm, iv, ss, wf⟩ := d
  simp only at h1 h2 h3 h4 h5 h6 h7
  subst h1 h2 h3 h4 h5 h6 h7
  exact rows_apply wf hN x idx r k

/-- When the `r`-th index word, read signed, already lies in `[0, N)`, the clamp does nothing: the row is the word
    itself. -/
theorem gather_rows_apply_of_inRange {N M C w : Nat} {α : Type} (d : GatherDims ⟨2, ![N, C]⟩ ⟨2, ![M, 1]⟩ ⟨2, ![M, C]⟩)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, C])
    (x : (⟨2, ![N, C]⟩ : Shape).Idx → α) (idx : IVec ⟨2, ![M, 1]⟩ w) (r : Fin M) (k : Fin C)
    (h0 : 0 ≤ (idx (ix2 r (0 : Fin 1))).toInt) (hlt : (idx (ix2 r (0 : Fin 1))).toInt < N) :
    Host.gather d x idx (ix2 r k)
      = x (ix2 (⟨(idx (ix2 r (0 : Fin 1))).toInt.toNat, by omega⟩ : Fin N) k) := by
  have hN : 0 < N := by omega
  rw [gather_rows_apply d h1 h2 h3 h4 h5 h6 h7 hN x idx r k]
  have hm : min (idx (ix2 r (0 : Fin 1))).toInt.toNat (N - 1) = (idx (ix2 r (0 : Fin 1))).toInt.toNat :=
    Nat.min_eq_left (by omega)
  exact congrArg x (congrArg (fun a => ix2 a k) (Fin.ext hm))
end Cert.LibGatherRows
end
-- ==== Proof.PreIdx.lean ====
import proofs.«428091_j34256659153220_3_alg».proof.Proof.Gen.KernelIdeal
import proofs.«428091_j34256659153220_3_alg».proof.Proof.Gen.Pre_finite_inputs
import proofs.«428091_j34256659153220_3_alg».proof.Defs
import Idealize.ShloMosaic.Lib.ValueIdx
import Idealize.ShloMosaic.Lib.ReduceAll
noncomputable section

namespace Cert.KernelIdeal.Hand
open Cert.KernelIdeal Cert.KernelIdeal.Gen Idealize.ShloMosaic Idealize.ShloMosaic.TcCoe Idealize.ShloMosaic.ValueIdx Idealize.SL.Sem

/-- The precondition is a conjunction of nine one-bit words, joined left to right; its last two
    conjuncts are "all entries of the index array are ≥ 0" and "all entries are < 100000" (signed).
    A conjunction equal to 1 has both sides equal to 1, so peeling the outermost two joins yields
    these two facts; an all-reduction by "and" that comes out 1 had a 1 at every position; and at
    a position the compared arrays are the index entry and the broadcast literal. -/
theorem idx_in_range (m : (ℓ : Loc nD τ sig) → Buf (Elt Ideal) ℓ) (hpre : Cert.Pre_KernelIdeal m) (c : Dev nD) (i : S2x600000.Idx) :
    IntOp.cmpi .sge ((m ((c.tc : Thread nD τ).loc main_arg1) : S2x600000.Idx → BitVec 32) i) 0#32 = 1#1
    ∧ IntOp.cmpi .slt ((m ((c.tc : Thread nD τ).loc main_arg1) : S2x600000.Idx → BitVec 32) i) 100000#32 = 1#1 := by
  -- the shape with no axes has exactly one index (the empty tuple)
  haveI : Subsingleton Cert.Pre_finite_inputs.S_.Idx := ⟨fun a b => funext fun d => d.elim0⟩
  -- the precondition's one-bit result, read at its only index
  have h := congrFun (hpre c) ValueIdx.ix0
  dsimp only [Cert.Pre_finite_inputs.fn, Cert.Pre_finite_inputs.fn_part1, Cert.Pre_finite_inputs.fn_part2] at h
  -- outermost join: (everything before) ∧ (all entries < 100000)
  obtain ⟨h1, hlt⟩ := IntOp.andi_eq_one.1 h
  -- next join: (the seven finiteness conjuncts) ∧ (all entries ≥ 0)
  obtain ⟨_, hge⟩ := IntOp.andi_eq_one.1 h1
  -- each all-reduction gives its bit at position i; there the comparison is of the entry with the literal
  exact ⟨Host.reduce_andi_all _ _ _ _ _ hge i, Host.reduce_andi_all _ _ _ _ _ hlt i⟩
end Cert.KernelIdeal.Hand
end
-- ==== Proof.Gathered.lean ====
/-
  The rows the host gathers before the launch are the reference's two gathers.

  Before its one launch the kernel's program joins the two rows of the index array into one list of 1200000 indices
  (the first row in positions 0 … 599999, the second in positions 600000 … 1199999), adds 100000 to the negative
  ones, takes the table's row at each index (the gather clamps the index, read signed, into 0 … 99999), and replaces
  by a row of NaNs every row whose wrapped index is not in 0 … 99999. The reference wraps each index row by itself
  and gathers the table's rows at it, twice.

  Under the precondition every index lies in [0, 100000). Then: a word of that range is not negative, so wrapping
  leaves it alone; it is at least 0 and at most 99999, so the range test is 1 at every entry, the conjunction over a
  row's one entry is 1, and no row is replaced; and the gather's clamp reads the row the word names. So the kernel's
  array at row q, column k is the table at (row named by the joined list's entry q, k), and the reference's gathers
  at (r, k) are the table at (row named by the index array's (0, r), resp. (1, r), k). The joined list's entry r is
  the index array's (0, r), its entry 600000 + r is (1, r): the two statements.

  The host's operations are read in three stretches. The first leaves the joined list in its buffer; the second is a
  function of the table and that list alone; the third writes other buffers. In the second stretch the conjunction
  over the column's one entry is carried as a function variable, so that reading the stretch never looks inside a
  reduction over 1200000 rows; what that function is matters only at one row at a time, afterwards.
-/
import proofs.«428091_j34256659153220_3_alg».proof.Proof.EntryKI
import proofs.«428091_j34256659153220_3_alg».proof.Proof.Gen.ReferenceIdeal.Read
import proofs.«428091_j34256659153220_3_alg».proof.Proof.Gen.Pre_finite_inputs
import proofs.«428091_j34256659153220_3_alg».proof.Defs
import proofs.«428091_j34256659153220_3_alg».proof.Proof.LibGatherRows
import proofs.«428091_j34256659153220_3_alg».proof.Proof.PreIdx
import Idealize.ShloMosaic.Lib.ValueIdx
import Idealize.ShloMosaic.Lib.ReduceAll
import Idealize.ShloMosaic.Lib.Pipeline.Value
import Idealize.ShloMosaic.Lib.StableHlo.Run
noncomputable section

namespace Cert.KernelIdeal.Hand.Gathered
open Idealize.ShloMosaic Idealize.ShloMosaic.ValueIdx

/-! ## Words -/

/-- A one-bit word made from a truth value is 1 only if the truth value is true. -/
theorem ofBool_eq_one {b : Bool} (h : BitVec.ofBool b = 1#1) : b = true := by
  cases b
  · exact absurd h (by decide)
  · rfl

/-- A word that is at least 0 and below 100000 (both read signed) is not below 0 and is at most 99999. -/
theorem word_in_table (e : BitVec 32) (h0 : IntOp.cmpi .sge e 0#32 = 1#1) (h1 : IntOp.cmpi .slt e 100000#32 = 1#1) :
    IntOp.cmpi .slt e 0#32 = 0#1 ∧ IntOp.cmpi .sle e 99999#32 = 1#1 := by
  have z : (0#32 : BitVec 32).toInt = 0 := by decide
  have a : (100000#32 : BitVec 32).toInt = 100000 := by decide
  have b : (99999#32 : BitVec 32).toInt = 99999 := by decide
  have g0 : (0 : Int) ≤ e.toInt := by
    have h0' : BitVec.ofBool ((0#32 : BitVec 32).sle e) = 1#1 := h0
    have := ofBool_eq_one h0'
    rw [BitVec.sle, decide_eq_true_eq, z] at this; exact this
  have g1 : e.toInt < 100000 := by
    have h1' : BitVec.ofBool (e.slt 100000#32) = 1#1 := h1
    have := ofBool_eq_one h1'
    rw [BitVec.slt, decide_eq_true_eq, a] at this; exact this
  constructor
  · have : e.slt 0#32 = false := by
      rw [BitVec.slt, decide_eq_false_iff_not, z]; omega
    show BitVec.ofBool (e.slt 0#32) = 0#1
    rw [this]; rfl
  · have : e.sle 99999#32 = true := by
      rw [BitVec.sle, decide_eq_true_eq, b]; omega
    show BitVec.ofBool (e.sle 99999#32) = 1#1
    rw [this]; rfl

/-- Adding 100000 to the negative words leaves a word of `[0, 100000)` as it is. -/
theorem wrap_word (e : BitVec 32) (h0 : IntOp.cmpi .sge e 0#32 = 1#1) (h1 : IntOp.cmpi .slt e 100000#32 = 1#1) :
    Scalar.select (IntOp.cmpi .slt e 0#32) (IntOp.addi e 100000#32) e = e := by
  rw [(word_in_table e h0 h1).1, select_zero]

/-- A left fold by "and" from 1 over entries that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], init, h, _ => h
  | a :: l, init, h, hl => by
    rw [List.foldl_cons]
    exact foldl_andi_one f l _ (IntOp.andi_eq_one.2 ⟨h, hl a List.mem_cons_self⟩) (fun n hn => hl n (List.mem_cons_of_mem _ hn))

/-- A reduction by "and" from the constant 1 over an array of 1s is 1 everywhere. -/
theorem reduce_andi_one {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  rw [Host.reduce_eq_foldl]
  exact foldl_andi_one x _ _ (hinit _) (fun n _ => hx n)

/-- The table's row number `e` — the word read signed and clamped into the table — at column `k`. -/
def rowAt (x0 : (⟨2, ![100000, 128]⟩ : Shape).Idx → EReal) (e : BitVec 32) (k : Fin 128) : EReal :=
  x0 (ix2 (⟨min e.toInt.toNat (100000 - 1), by omega⟩ : Fin 100000) k)

end Cert.KernelIdeal.Hand.Gathered

/-! ## The reference's two gathers at an index -/

namespace Cert.KernelIdeal.Hand.Gathered.Ref
open Idealize.ShloMosaic Idealize.ShloMosaic.ValueIdx
open Cert.ReferenceIdeal Cert.ReferenceIdeal.Gen Cert.ReferenceIdeal.Read

/-- The reference's first index row, wrapped and stood up as a column: entry `r` is the index array's `(0, r)`
    when that word lies in `[0, 100000)`. -/
theorem word_src (x1 : (⟨S2x600000, .i32⟩ : BufTy).Contents (Elt Ideal)) (r : Fin 600000)
    (h0 : IntOp.cmpi .sge (x1 (ix2 (0 : Fin 2) r)) 0#32 = 1#1) (h1 : IntOp.cmpi .slt (x1 (ix2 (0 : Fin 2) r)) 100000#32 = 1#1) :
    val_main_v7 (F := Ideal) x1 (ix2 r (0 : Fin 1)) = x1 (ix2 (0 : Fin 2) r) := by
  have e1 : val_main_v1 (F := Ideal) x1 (ix1 r) = x1 (ix2 (0 : Fin 2) r) := by
    rw [val_main_v1_apply, val_main_v0_apply]
    refine congrArg x1 (funext fun a => Fin.ext ?_)
    match a with
    | ⟨0, _⟩ => rfl
    | ⟨1, _⟩ => show r.val % 600000 = r.val; exact Nat.mod_eq_of_lt r.isLt
  have e7 : idx_main_v7 (ix2 r (0 : Fin 1)) = ix1 r := funext fun a => match a with | ⟨0, _⟩ => rfl
  rw [val_main_v7_apply, e7, val_main_v6_apply, val_main_v3_apply, val_main_v5_apply, val_main_v2_apply, val_main_v4_apply,
    val_main_c_apply, val_main_c_0_apply, e1]
  exact wrap_word _ h0 h1

/-- The same for the second index row: entry `r` is the index array's `(1, r)`. -/
theorem word_tgt (x1 : (⟨S2x600000, .i32⟩ : BufTy).Contents (Elt Ideal)) (r : Fin 600000)
    (h0 : IntOp.cmpi .sge (x1 (ix2 (1 : Fin 2) r)) 0#32 = 1#1) (h1 : IntOp.cmpi .slt (x1 (ix2 (1 : Fin 2) r)) 100000#32 = 1#1) :
    val_main_v16 (F := Ideal) x1 (ix2 r (0 : Fin 1)) = x1 (ix2 (1 : Fin 2) r) := by
  have e1 : val_main_v10 (F := Ideal) x1 (ix1 r) = x1 (ix2 (1 : Fin 2) r) := by
    rw [val_main_v10_apply, val_main_v9_apply]
    refine congrArg x1 (funext fun a => Fin.ext ?_)
    match a with
    | ⟨0, _⟩ => rfl
    | ⟨1, _⟩ => show r.val % 600000 = r.val; exact Nat.mod_eq_of_lt r.isLt
  have e16 : idx_main_v16 (ix2 r (0 : Fin 1)) = ix1 r := funext fun a => match a with | ⟨0, _⟩ => rfl
  rw [val_main_v16_apply, e16, val_main_v15_apply, val_main_v12_apply, val_main_v14_apply, val_main_v11_apply, val_main_v13_apply,
    val_main_c_1_apply, val_main_c_2_apply, e1]
  exact wrap_word _ h0 h1

/-- The reference's first gather at `(r, k)`: the table's row number `idx[0, r]`. -/
theorem rows_src (x0 : (⟨S100000x128, .f32⟩ : BufTy).Contents (Elt Ideal)) (x1 : (⟨S2x600000, .i32⟩ : BufTy).Contents (Elt Ideal))
    (r : Fin 600000) (k : Fin 128)
    (h0 : IntOp.cmpi .sge (x1 (ix2 (0 : Fin 2) r)) 0#32 = 1#1) (h1 : IntOp.cmpi .slt (x1 (ix2 (0 : Fin 2) r)) 100000#32 = 1#1) :
    val_main_v8 (F := Ideal) x0 x1 (ix2 r k) = rowAt x0 (x1 (ix2 (0 : Fin 2) r)) k := by
  have g : val_main_v8 (F := Ideal) x0 x1 (ix2 r k) = rowAt x0 (val_main_v7 (F := Ideal) x1 (ix2 r (0 : Fin 1))) k :=
    Cert.LibGatherRows.gather_rows_apply (N := 100000) (M := 600000) (C := 128)
      gather_S100000x128_S600000x1_S600000x128_1_0_n_n_0_1_1128 rfl rfl rfl rfl rfl rfl rfl (by decide) x0
      (val_main_v7 (F := Ideal) x1) r k
  rw [g, word_src x1 r h0 h1]

/-- The reference's second gather at `(r, k)`: the table's row number `idx[1, r]`. -/
theorem rows_tgt (x0 : (⟨S100000x128, .f32⟩ : BufTy).Contents (Elt Ideal)) (x1 : (⟨S2x600000, .i32⟩ : BufTy).Contents (Elt Ideal))
    (r : Fin 600000) (k : Fin 128)
    (h0 : IntOp.cmpi .sge (x1 (ix2 (1 : Fin 2) r)) 0#32 = 1#1) (h1 : IntOp.cmpi .slt (x1 (ix2 (1 : Fin 2) r)) 100000#32 = 1#1) :
    val_main_v17 (F := Ideal) x0 x1 (ix2 r k) = rowAt x0 (x1 (ix2 (1 : Fin 2) r)) k := by
  have g : val_main_v17 (F := Ideal) x0 x1 (ix2 r k) = rowAt x0 (val_main_v16 (F := Ideal) x1 (ix2 r (0 : Fin 1))) k :=
    Cert.LibGatherRows.gather_rows_apply (N := 100000) (M := 600000) (C := 128)
      gather_S100000x128_S600000x1_S600000x128_1_0_n_n_0_1_1128 rfl rfl rfl rfl rfl rfl rfl (by decide) x0
      (val_main_v16 (F := Ideal) x1) r k
  rw [g, word_tgt x1 r h0 h1]

end Cert.KernelIdeal.Hand.Gathered.Ref

/-! ## The kernel's gathered rows -/

namespace Cert.KernelIdeal.Hand.Gathered
open Idealize.ShloMosaic Idealize.ShloMosaic.ValueIdx Idealize.ShloMosaic.TcCoe Idealize.SL.Sem
open Cert.KernelIdeal Cert.KernelIdeal.Gen
open Idealize.ShloMosaic.StableHlo

/-- The two index rows cut out of the index array, each flattened, and laid end to end: a list of 1200000 indices. -/
def joinedIdx (x1 : (⟨S2x600000, .i32⟩ : BufTy).Contents (Elt Ideal)) : (⟨S1200000, .i32⟩ : BufTy).Contents (Elt Ideal) :=
  concatenate S1200000 0
    [⟨S600000, shapeCast S600000 (extractStridedSlice S1x600000 ![0, 0] x1 slices_S2x600000_S1x600000_0_0) shapeCasts_S1x600000_S600000⟩,
     ⟨S600000, shapeCast S600000 (extractStridedSlice S1x600000 ![1, 0] x1 slices_S2x600000_S1x600000_1_0) shapeCasts_S1x600000_S600000⟩]
    concatenates_S600000_S600000_S1200000_d0

/-- An index list with 100000 added to its negative entries. -/
def wrapIdx (j : (⟨S1200000, .i32⟩ : BufTy).Contents (Elt Ideal)) : (⟨S1200000, .i32⟩ : BufTy).Contents (Elt Ideal) :=
  select (cmpi .slt j (broadcastInDim S1200000 ![] bcast_S_S1200000 (constantI S_ 32 0#32)))
    (addi j (broadcastInDim S1200000 ![] bcast_S_S1200000 (constantI S_ 32 100000#32))) j

/-- The wrapped index list as a column. -/
def colIdx (j : (⟨S1200000, .i32⟩ : BufTy).Contents (Elt Ideal)) : (⟨S1200000x1, .i32⟩ : BufTy).Contents (Elt Ideal) :=
  broadcastInDim S1200000x1 ![0] bcast_S1200000_S1200000x1_0 (wrapIdx j)

/-- Entry by entry: is the wrapped index at least 0 and at most 99999? -/
def inTable (j : (⟨S1200000, .i32⟩ : BufTy).Contents (Elt Ideal)) : (⟨S1200000x1, .i1⟩ : BufTy).Contents (Elt Ideal) :=
  andi (cmpi .sge (colIdx j) (broadcastInDim S1200000x1 ![] bcast_S_S1200000x1 (constantI S_ 32 0#32)))
    (cmpi .sle (colIdx j) (broadcastInDim S1200000x1 ![0, 1] bcast_S1x1_S1200000x1_0_1
      (broadcastInDim S1x1 ![1] bcast_S1_S1x1_1 (constantI S1 32 99999#32))))

/-- The gathered rows for ANY way `R` of folding the column of tests into one test per row and ANY way `G` of taking
    rows of the table at a column of indices: a row whose test fails is replaced by a row of NaNs. -/
def takeRowsOf
    (R : (⟨S1200000x1, .i1⟩ : BufTy).Contents (Elt Ideal) → (⟨S_, .i1⟩ : BufTy).Contents (Elt Ideal) → (⟨S1200000, .i1⟩ : BufTy).Contents (Elt Ideal))
    (G : (⟨S100000x128, .f32⟩ : BufTy).Contents (Elt Ideal) → (⟨S1200000x1, .i32⟩ : BufTy).Contents (Elt Ideal) → (⟨S1200000x128, .f32⟩ : BufTy).Contents (Elt Ideal))
    (x0 : (⟨S100000x128, .f32⟩ : BufTy).Contents (Elt Ideal)) (j : (⟨S1200000, .i32⟩ : BufTy).Contents (Elt Ideal)) :
    (⟨S1200000x128, .f32⟩ : BufTy).Contents (Elt Ideal) :=
  select (broadcastInDim S1200000x128 ![0] bcast_S1200000_S1200000x128_0 (R (inTable j) (constantI S_ 1 1#1))) (G x0 (colIdx j))
    (broadcastInDim S1200000x128 ![] bcast_S_S1200000x128 (constant (F := Ideal) S_ .f32 0x7FC00000#32))

/-- The gathered rows as the program computes them: a row's test is the conjunction over the column's one entry, the
    rows are taken by the program's gather. -/
def takeRows (x0 : (⟨S100000x128, .f32⟩ : BufTy).Contents (Elt Ideal)) (j : (⟨S1200000, .i32⟩ : BufTy).Contents (Elt Ideal)) :
    (⟨S1200000x128, .f32⟩ : BufTy).Contents (Elt Ideal) :=
  takeRowsOf (fun x v => Host.reduce IntOp.andi x v reducesTo_S1200000x1_S1200000_d1 h_S_)
    (fun x i => Host.gather gather_S100000x128_S1200000x1_S1200000x128_1_0_n_n_0_1_1128 x i) x0 j

/-! ### The host operations, stretch by stretch -/

/-- After the first five operations the joined list sits in its buffer. -/
theorem after0_v4 (W : Valuation τ sig (Elt Ideal)) :
    StableHlo.after hostOps0 W (Proc.devRef .tc main_v4) = joinedIdx (W (Proc.devRef .tc main_arg1)) := by
  simp only [hostOps0]
  after_results
  rfl

/-- They leave the table as it was. -/
theorem after0_arg0 (W : Valuation τ sig (Elt Ideal)) :
    StableHlo.after hostOps0 W (Proc.devRef .tc main_arg0) = W (Proc.devRef .tc main_arg0) := by
  simp only [hostOps0]
  after_results

/-- The next 23 operations leave in the result's buffer the gathered rows of the table and the joined list. The
    conjunction over the column's one entry is carried as an unnamed function `R` here: nothing in this step depends
    on what it computes. -/
theorem after1_v5_of (W : Valuation τ sig (Elt Ideal))
    (R : (⟨S1200000x1, .i1⟩ : BufTy).Contents (Elt Ideal) → (⟨S_, .i1⟩ : BufTy).Contents (Elt Ideal) → (⟨S1200000, .i1⟩ : BufTy).Contents (Elt Ideal))
    (hR : (fun (x : (⟨S1200000x1, .i1⟩ : BufTy).Contents (Elt Ideal)) (v : (⟨S_, .i1⟩ : BufTy).Contents (Elt Ideal)) =>
        Host.reduce IntOp.andi x v reducesTo_S1200000x1_S1200000_d1 h_S_) = R) :
    StableHlo.after hostOps0_1 W (Proc.devRef .tc main_v5)
      = takeRowsOf R (fun x i => Host.gather gather_S100000x128_S1200000x1_S1200000x128_1_0_n_n_0_1_1128 x i)
          (W (Proc.devRef .tc main_arg0)) (W (Proc.devRef .tc main_v4)) := by
  simp only [hostOps0_1]
  rw [hR]
  after_results_simp
  rfl

theorem after1_v5 (W : Valuation τ sig (Elt Ideal)) :
    StableHlo.after hostOps0_1 W (Proc.devRef .tc main_v5) = takeRows (W (Proc.devRef .tc main_arg0)) (W (Proc.devRef .tc main_v4)) :=
  after1_v5_of W _ rfl

/-- The last nine operations write the weights' buffers only. -/
theorem after2_v5 (W : Valuation τ sig (Elt Ideal)) :
    StableHlo.after hostOps0_2 W (Proc.devRef .tc main_v5) = W (Proc.devRef .tc main_v5) := by
  simp only [hostOps0_2]
  after_results

/-- So the launch finds in the result's buffer the gathered rows of argument 0 at the joined rows of argument 1. -/
theorem V_main_v5 (m : (ℓ : Loc nD τ sig) → Buf (Elt Ideal) ℓ) (c : Dev nD) :
    (V m c main_v5 : S1200000x128.Idx → EReal)
      = takeRows (m ((c.tc : Thread nD τ).loc main_arg0)) (joinedIdx (m ((c.tc : Thread nD τ).loc main_arg1))) := by
  dsimp only [V]
  rw [List.flatten_cons, List.flatten_cons, List.flatten_cons, List.flatten_nil, List.append_nil, StableHlo.after_append,
    StableHlo.after_append, after2_v5, after1_v5, after0_v4, after0_arg0]

/-! ### The pieces at an index -/

/-- The joined list below position 600000 is the first index row. -/
theorem joined_src (x1 : (⟨S2x600000, .i32⟩ : BufTy).Contents (Elt Ideal)) (r : Fin 600000) :
    joinedIdx x1 (ix1 (⟨r.val, by have := r.isLt; omega⟩ : Fin 1200000)) = x1 (ix2 (0 : Fin 2) r) := by
  unfold joinedIdx
  refine (concatenate_pair_apply_left (0 : Fin S1200000.rank) _ _ concatenates_S600000_S600000_S1200000_d0 _ rfl (ix1 r)
    (fun b => match b with | ⟨0, _⟩ => rfl)).trans ?_
  refine (shapeCast_apply _ shapeCasts_S1x600000_S600000 (ix1 r) (ix2 (0 : Fin 1) r) (by
    rewrite [Shape.rowMajor_val_two, Shape.rowMajor_val_one]; show 0 * 600000 + r.val = r.val; omega)).trans ?_
  exact extractStridedSlice_apply ![0, 0] x1 slices_S2x600000_S1x600000_0_0 (ix2 (0 : Fin 1) r) (ix2 (0 : Fin 2) r)
    (fun a => match a with
      | ⟨0, _⟩ => by show (0 : Nat) = 0 + 0; rfl
      | ⟨1, _⟩ => by show r.val = 0 + r.val; omega)

/-- From position 600000 on it is the second index row. -/
theorem joined_tgt (x1 : (⟨S2x600000, .i32⟩ : BufTy).Contents (Elt Ideal)) (r : Fin 600000) :
    joinedIdx x1 (ix1 (⟨600000 + r.val, by have := r.isLt; omega⟩ : Fin 1200000)) = x1 (ix2 (1 : Fin 2) r) := by
  unfold joinedIdx
  refine (concatenate_pair_apply_right (0 : Fin S1200000.rank) _ _ concatenates_S600000_S600000_S1200000_d0 _ rfl rfl (ix1 r)
    (fun b => match b with | ⟨0, _⟩ => fun hb => absurd rfl hb)
    (by show r.val + 600000 = 600000 + r.val; omega)).trans ?_
  refine (shapeCast_apply _ shapeCasts_S1x600000_S600000 (ix1 r) (ix2 (0 : Fin 1) r) (by
    rewrite [Shape.rowMajor_val_two, Shape.rowMajor_val_one]; show 0 * 600000 + r.val = r.val; omega)).trans ?_
  exact extractStridedSlice_apply ![1, 0] x1 slices_S2x600000_S1x600000_1_0 (ix2 (0 : Fin 1) r) (ix2 (1 : Fin 2) r)
    (fun a => match a with
      | ⟨0, _⟩ => by show (1 : Nat) = 1 + 0; rfl
      | ⟨1, _⟩ => by show r.val = 0 + r.val; omega)

/-- If every entry of the index array lies in `[0, 100000)`, so does every entry of the joined list: an entry of the
    list is an entry of the array. -/
theorem joined_inRange (x1 : (⟨S2x600000, .i32⟩ : BufTy).Contents (Elt Ideal))
    (hx : ∀ i, IntOp.cmpi .sge (x1 i) 0#32 = 1#1 ∧ IntOp.cmpi .slt (x1 i) 100000#32 = 1#1) (q : Fin 1200000) :
    IntOp.cmpi .sge (joinedIdx x1 (ix1 q)) 0#32 = 1#1 ∧ IntOp.cmpi .slt (joinedIdx x1 (ix1 q)) 100000#32 = 1#1 := by
  by_cases h : q.val < 600000
  · have e : q = (⟨(⟨q.val, h⟩ : Fin 600000).val, by omega⟩ : Fin 1200000) := Fin.ext rfl
    rw [e, joined_src]
    exact hx _
  · have h' : q.val - 600000 < 600000 := by have := q.isLt; omega
    have e : q = (⟨600000 + (⟨q.val - 600000, h'⟩ : Fin 600000).val, by show 600000 + (q.val - 600000) < 1200000; omega⟩ : Fin 1200000) :=
      Fin.ext (by show q.val = 600000 + (q.val - 600000); omega)
    rw [e, joined_tgt]
    exact hx _

/-- Wrapping leaves an entry of `[0, 100000)` as it is. -/
theorem wrapIdx_apply (j : (⟨S1200000, .i32⟩ : BufTy).Contents (Elt Ideal)) (q : Fin 1200000)
    (h0 : IntOp.cmpi .sge (j (ix1 q)) 0#32 = 1#1) (h1 : IntOp.cmpi .slt (j (ix1 q)) 100000#32 = 1#1) :
    wrapIdx j (ix1 q) = j (ix1 q) :=
  wrap_word (j (ix1 q)) h0 h1

/-- The column's entry `(q, 0)` is the wrapped list's entry `q`. -/
theorem colIdx_apply (j : (⟨S1200000, .i32⟩ : BufTy).Contents (Elt Ideal)) (q : Fin 1200000) :
    colIdx j (ix2 q (0 : Fin 1)) = wrapIdx j (ix1 q) := by
  unfold colIdx
  exact broadcastInDim_apply _ bcast_S1200000_S1200000x1_0 (wrapIdx j) (ix2 q (0 : Fin 1)) (ix1 q) (fun a => match a with
    | ⟨0, _⟩ => by show q.val = if (1200000 : Nat) = 1 then 0 else q.val; rw [if_neg (by decide)])

/-- Every index of the column is `(q, 0)` for its row `q`. -/
theorem col_idx (i : S1200000x1.Idx) : i = ix2 (⟨(i 0).val, idx2_lt0 i⟩ : Fin 1200000) (0 : Fin 1) := by
  funext a
  match a with
  | ⟨0, _⟩ => rfl
  | ⟨1, _⟩ => exact Fin.ext (by have := idx2_lt1 i; show (i 1).val = 0; omega)

/-- Where every entry of the list lies in `[0, 100000)` the range test holds at every entry. -/
theorem inTable_apply (j : (⟨S1200000, .i32⟩ : BufTy).Contents (Elt Ideal))
    (hj : ∀ q : Fin 1200000, IntOp.cmpi .sge (j (ix1 q)) 0#32 = 1#1 ∧ IntOp.cmpi .slt (j (ix1 q)) 100000#32 = 1#1)
    (i : S1200000x1.Idx) : inTable j i = 1#1 := by
  rw [col_idx i]
  generalize (⟨(i 0).val, idx2_lt0 i⟩ : Fin 1200000) = q
  show IntOp.andi (IntOp.cmpi .sge (colIdx j (ix2 q (0 : Fin 1))) 0#32) (IntOp.cmpi .sle (colIdx j (ix2 q (0 : Fin 1))) 99999#32) = 1#1
  rw [colIdx_apply, wrapIdx_apply j q (hj q).1 (hj q).2]
  exact IntOp.andi_eq_one.2 ⟨(hj q).1, (word_in_table _ (hj q).1 (hj q).2).2⟩

/-- Whatever the row test's fold `R` and the gather `G`: where the folded test is 1 at row `q`, the gathered rows
    are `G`'s at `(q, k)`. -/
theorem takeRowsOf_apply
    (R : (⟨S1200000x1, .i1⟩ : BufTy).Contents (Elt Ideal) → (⟨S_, .i1⟩ : BufTy).Contents (Elt Ideal) → (⟨S1200000, .i1⟩ : BufTy).Contents (Elt Ideal))
    (G : (⟨S100000x128, .f32⟩ : BufTy).Contents (Elt Ideal) → (⟨S1200000x1, .i32⟩ : BufTy).Contents (Elt Ideal) → (⟨S1200000x128, .f32⟩ : BufTy).Contents (Elt Ideal))
    (x0 : (⟨S100000x128, .f32⟩ : BufTy).Contents (Elt Ideal)) (j : (⟨S1200000, .i32⟩ : BufTy).Contents (Elt Ideal))
    (q : Fin 1200000) (k : Fin 128) (hR : R (inTable j) (constantI S_ 1 1#1) (ix1 q) = 1#1) :
    takeRowsOf R G x0 j (ix2 q k) = G x0 (colIdx j) (ix2 q k) := by
  unfold takeRowsOf
  rw [select_apply]
  have hb : broadcastInDim S1200000x128 ![0] bcast_S1200000_S1200000x128_0 (R (inTable j) (constantI S_ 1 1#1)) (ix2 q k)
      = R (inTable j) (constantI S_ 1 1#1) (ix1 q) :=
    broadcastInDim_apply _ bcast_S1200000_S1200000x128_0 _ (ix2 q k) (ix1 q) (fun a => match a with
      | ⟨0, _⟩ => by show q.val = if (1200000 : Nat) = 1 then 0 else q.val; rw [if_neg (by decide)])
  rw [hb, hR, select_one]

/-- THE GATHERED ROWS AT `(q, k)`, where every entry of the list lies in `[0, 100000)`: the table's row number
    `j[q]`. No row is replaced (the test holds everywhere), the wrap does nothing, and the gather reads the row the
    column's word names. -/
theorem takeRows_apply (x0 : (⟨S100000x128, .f32⟩ : BufTy).Contents (Elt Ideal)) (j : (⟨S1200000, .i32⟩ : BufTy).Contents (Elt Ideal))
    (hj : ∀ q : Fin 1200000, IntOp.cmpi .sge (j (ix1 q)) 0#32 = 1#1 ∧ IntOp.cmpi .slt (j (ix1 q)) 100000#32 = 1#1)
    (q : Fin 1200000) (k : Fin 128) :
    takeRows x0 j (ix2 q k) = rowAt x0 (j (ix1 q)) k := by
  have hR : Host.reduce IntOp.andi (inTable j) (constantI S_ 1 1#1) reducesTo_S1200000x1_S1200000_d1 h_S_ (ix1 q) = 1#1 :=
    reduce_andi_one _ _ _ _ (fun _ => rfl) (inTable_apply j hj) (ix1 q)
  have g : Host.gather gather_S100000x128_S1200000x1_S1200000x128_1_0_n_n_0_1_1128 x0 (colIdx j) (ix2 q k)
      = rowAt x0 (colIdx j (ix2 q (0 : Fin 1))) k :=
    Cert.LibGatherRows.gather_rows_apply (N := 100000) (M := 1200000) (C := 128)
      gather_S100000x128_S1200000x1_S1200000x128_1_0_n_n_0_1_1128 rfl rfl rfl rfl rfl rfl rfl (by decide) x0 (colIdx j) q k
  unfold takeRows
  refine (takeRowsOf_apply (fun x v => Host.reduce IntOp.andi x v reducesTo_S1200000x1_S1200000_d1 h_S_)
    (fun x i => Host.gather gather_S100000x128_S1200000x1_S1200000x128_1_0_n_n_0_1_1128 x i) x0 j q k hR).trans (g.trans ?_)
  rw [colIdx_apply, wrapIdx_apply j q (hj q).1 (hj q).2]

end Cert.KernelIdeal.Hand.Gathered

/-! ## The two statements -/

namespace Cert.KernelIdeal.Hand
open Cert.KernelIdeal Cert.KernelIdeal.Gen Idealize.ShloMosaic Idealize.ShloMosaic.TcCoe Idealize.ShloMosaic.ValueIdx Idealize.SL.Sem

/-- source rows -/
theorem gathered_src (m : (ℓ : Loc nD τ sig) → Buf (Elt Ideal) ℓ) (hpre : Cert.Pre_KernelIdeal m) (c : Dev nD) (r : Fin 600000) (k : Fin 128) :
    (V m c main_v5 : S1200000x128.Idx → EReal) (ix2 (⟨r.val, by have := r.isLt; omega⟩ : Fin 1200000) k)
      = Cert.ReferenceIdeal.Read.val_main_v8 (F := Ideal) (m ((c.tc : Thread nD τ).loc main_arg0)) (m ((c.tc : Thread nD τ).loc main_arg1)) (ix2 r k) := by
  have hx := idx_in_range m hpre c
  rw [Gathered.V_main_v5, Gathered.takeRows_apply _ _ (Gathered.joined_inRange _ hx), Gathered.joined_src,
    Gathered.Ref.rows_src _ _ r k (hx _).1 (hx _).2]
/-- target rows -/
theorem gathered_tgt (m : (ℓ : Loc nD τ sig) → Buf (Elt Ideal) ℓ) (hpre : Cert.Pre_KernelIdeal m) (c : Dev nD) (r : Fin 600000) (k : Fin 128) :
    (V m c main_v5 : S1200000x128.Idx → EReal) (ix2 (⟨600000 + r.val, by have := r.isLt; omega⟩ : Fin 1200000) k)
      = Cert.ReferenceIdeal.Read.val_main_v17 (F := Ideal) (m ((c.tc : Thread nD τ).loc main_arg0)) (m ((c.tc : Thread nD τ).loc main_arg1)) (ix2 r k) := by
  have hx := idx_in_range m hpre c
  rw [Gathered.V_main_v5, Gathered.takeRows_apply _ _ (Gathered.joined_inRange _ hx), Gathered.joined_tgt,
    Gathered.Ref.rows_tgt _ _ r k (hx _).1 (hx _).2]
end Cert.KernelIdeal.Hand
end
-- ==== Proof.RefEdge.lean ====
import proofs.«428091_j34256659153220_3_alg».proof.Proof.Spec
import proofs.«428091_j34256659153220_3_alg».proof.Proof.Gen.ReferenceIdeal.Read
import Idealize.ShloMosaic.Lib.ValueIdx
import Idealize.ShloMosaic.Lib.IdealHost
noncomputable section

namespace Cert.ReferenceIdeal.RefValue
open Cert.ReferenceIdeal Cert.ReferenceIdeal.Gen Cert.ReferenceIdeal.Read Idealize.ShloMosaic Idealize.ShloMosaic.ValueIdx

/-! ## Where each contraction reads its operands

At row `r`, column `c` of a product, term `k` of the contraction reads the left operand at row `r`, column `k` and
the right operand at row `k`, column `c`. -/

theorem lidx18 (r : Fin 600000) (c k : Fin 128) : lidx_main_v18 (ix2 r c) k = ix2 r k :=
  funext fun a => Fin.ext (by match a with | ⟨0, _⟩ => rfl | ⟨1, _⟩ => rfl)
theorem ridx18 (r : Fin 600000) (c k : Fin 128) : ridx_main_v18 (ix2 r c) k = ix2 k c :=
  funext fun a => Fin.ext (by match a with | ⟨0, _⟩ => rfl | ⟨1, _⟩ => rfl)
theorem lidx25 (r : Fin 600000) (c k : Fin 128) : lidx_main_v25 (ix2 r c) k = ix2 r k :=
  funext fun a => Fin.ext (by match a with | ⟨0, _⟩ => rfl | ⟨1, _⟩ => rfl)
theorem ridx25 (r : Fin 600000) (c k : Fin 128) : ridx_main_v25 (ix2 r c) k = ix2 k c :=
  funext fun a => Fin.ext (by match a with | ⟨0, _⟩ => rfl | ⟨1, _⟩ => rfl)
theorem lidx35 (r : Fin 600000) (c : Fin 128) (k : Fin 256) : lidx_main_v35 (ix2 r c) k = ix2 r k :=
  funext fun a => Fin.ext (by match a with | ⟨0, _⟩ => rfl | ⟨1, _⟩ => rfl)
theorem ridx35 (r : Fin 600000) (c : Fin 128) (k : Fin 256) : ridx_main_v35 (ix2 r c) k = ix2 k c :=
  funext fun a => Fin.ext (by match a with | ⟨0, _⟩ => rfl | ⟨1, _⟩ => rfl)
theorem lidx40 (r : Fin 600000) (c k : Fin 128) : lidx_main_v40 (ix2 r c) k = ix2 r k :=
  funext fun a => Fin.ext (by match a with | ⟨0, _⟩ => rfl | ⟨1, _⟩ => rfl)
theorem ridx40 (r : Fin 600000) (c k : Fin 128) : ridx_main_v40 (ix2 r c) k = ix2 k c :=
  funext fun a => Fin.ext (by match a with | ⟨0, _⟩ => rfl | ⟨1, _⟩ => rfl)
/-- A bias row spread over all rows reads its column. -/
theorem bidx37 (r : Fin 600000) (c : Fin 128) : idx_main_v36 (idx_main_v37 (ix2 r c)) = ix1 c :=
  funext fun a => Fin.ext (by match a with | ⟨0, _⟩ => rfl)
theorem bidx42 (r : Fin 600000) (c : Fin 128) : idx_main_v41 (idx_main_v42 (ix2 r c)) = ix1 c :=
  funext fun a => Fin.ext (by match a with | ⟨0, _⟩ => rfl)

/-! ## The two gated rows -/

/-- The source row times the sigmoid of its projection: the quotient `1 / (1 + e^(-z))` the program spells out is
    the logistic function of `z`, once the word of the float one is read as the number one. -/
theorem gate_src (x0 : (⟨S100000x128, .f32⟩ : BufTy).Contents (Elt Ideal)) (x1 : (⟨S2x600000, .i32⟩ : BufTy).Contents (Elt Ideal))
    (x2 : (⟨S128x128, .f32⟩ : BufTy).Contents (Elt Ideal)) (r : Fin 600000) (l : Fin 128) :
    val_main_v32 (F := Ideal) x0 x1 x2 (ix2 r l)
      = Cert.Spec.gate (fun k => val_main_v8 (F := Ideal) x0 x1 (ix2 r k)) (fun k j => x2 (ix2 k j)) l := by
  rw [val_main_v32_apply, val_main_v24_apply, val_main_v23_apply, val_main_cst_3_apply, val_main_v22_apply,
    val_main_v21_apply, val_main_cst_apply, val_main_v20_apply, val_main_v19_apply, val_main_v18_apply]
  simp only [lidx18, ridx18]
  rw [Ideal.ofBits_def, Ideal.ofBits_one_f32]
  rfl

/-- The target row, gated the same way through its own weights. -/
theorem gate_tgt (x0 : (⟨S100000x128, .f32⟩ : BufTy).Contents (Elt Ideal)) (x1 : (⟨S2x600000, .i32⟩ : BufTy).Contents (Elt Ideal))
    (x3 : (⟨S128x128, .f32⟩ : BufTy).Contents (Elt Ideal)) (r : Fin 600000) (l : Fin 128) :
    val_main_v33 (F := Ideal) x0 x1 x3 (ix2 r l)
      = Cert.Spec.gate (fun k => val_main_v17 (F := Ideal) x0 x1 (ix2 r k)) (fun k j => x3 (ix2 k j)) l := by
  rw [val_main_v33_apply, val_main_v31_apply, val_main_v30_apply, val_main_cst_5_apply, val_main_v29_apply,
    val_main_v28_apply, val_main_cst_4_apply, val_main_v27_apply, val_main_v26_apply, val_main_v25_apply]
  simp only [lidx25, ridx25]
  rw [Ideal.ofBits_def, Ideal.ofBits_one_f32]
  rfl

/-! ## The joined row

Columns below 128 of the joined row are the gated source row; column `128 + l` is column `l` of the gated target row. -/

theorem joined_upper (x0 : (⟨S100000x128, .f32⟩ : BufTy).Contents (Elt Ideal)) (x1 : (⟨S2x600000, .i32⟩ : BufTy).Contents (Elt Ideal))
    (x2 x3 : (⟨S128x128, .f32⟩ : BufTy).Contents (Elt Ideal)) (r : Fin 600000) (l : Fin 128) :
    val_main_v34 (F := Ideal) x0 x1 x2 x3 (ix2 r (Cert.Spec.upper l)) = val_main_v32 (F := Ideal) x0 x1 x2 (ix2 r l) := by
  unfold val_main_v34
  generalize val_main_v32 (F := Ideal) x0 x1 x2 = y1
  generalize val_main_v33 (F := Ideal) x0 x1 x3 = y2
  exact concatenate_pair_apply_left (t := S600000x256) (s₁ := S600000x128) (s₂ := S600000x128) 1 y1 y2
    concatenates_S600000x128_S600000x128_S600000x256_d1 (ix2 r (Cert.Spec.upper l)) rfl (ix2 r l) (fun b => by
      match b with
      | ⟨0, _⟩ => rfl
      | ⟨1, _⟩ => rfl)

theorem joined_lower (x0 : (⟨S100000x128, .f32⟩ : BufTy).Contents (Elt Ideal)) (x1 : (⟨S2x600000, .i32⟩ : BufTy).Contents (Elt Ideal))
    (x2 x3 : (⟨S128x128, .f32⟩ : BufTy).Contents (Elt Ideal)) (r : Fin 600000) (l : Fin 128) :
    val_main_v34 (F := Ideal) x0 x1 x2 x3 (ix2 r (Cert.Spec.lower l)) = val_main_v33 (F := Ideal) x0 x1 x3 (ix2 r l) := by
  unfold val_main_v34
  generalize val_main_v32 (F := Ideal) x0 x1 x2 = y1
  generalize val_main_v33 (F := Ideal) x0 x1 x3 = y2
  exact concatenate_pair_apply_right (t := S600000x256) (s₁ := S600000x128) (s₂ := S600000x128) 1 y1 y2
    concatenates_S600000x128_S600000x128_S600000x256_d1 (ix2 r (Cert.Spec.lower l)) rfl rfl (ix2 r l)
    (fun b hb => by
      match b with
      | ⟨0, _⟩ => rfl
      | ⟨1, _⟩ => exact absurd rfl hb)
    (by show l.val + 128 = 128 + l.val; omega)

/-! ## The hidden row -/

/-- The joined row against the whole projection is the two half contractions added; then the bias, then the cut at
    the zero word, which is kept as the word it is. -/
theorem hidden_row (x0 : (⟨S100000x128, .f32⟩ : BufTy).Contents (Elt Ideal)) (x1 : (⟨S2x600000, .i32⟩ : BufTy).Contents (Elt Ideal))
    (x2 x3 : (⟨S128x128, .f32⟩ : BufTy).Contents (Elt Ideal)) (x4 : (⟨S256x128, .f32⟩ : BufTy).Contents (Elt Ideal))
    (x5 : (⟨S128, .f32⟩ : BufTy).Contents (Elt Ideal)) (r : Fin 600000) (k : Fin 128) :
    val_main_v39 (F := Ideal) x0 x1 x2 x3 x4 x5 (ix2 r k)
      = Cert.Spec.hidden (fun k => val_main_v8 (F := Ideal) x0 x1 (ix2 r k)) (fun k => val_main_v17 (F := Ideal) x0 x1 (ix2 r k))
          (fun k j => x2 (ix2 k j)) (fun k j => x3 (ix2 k j))
          (fun l k => x4 (ix2 (Cert.Spec.upper l) k)) (fun l k => x4 (ix2 (Cert.Spec.lower l) k))
          (fun k => x5 (ix1 k)) (Ideal.ofBits .f32 0x00000000#32) k := by
  rw [val_main_v39_apply, val_main_call0_v0_apply, val_main_call0_cst_apply, val_main_v38_apply, val_main_v37_apply,
    val_main_v36_apply, val_main_v35_apply, bidx37, Cert.Spec.sum_halves]
  simp only [lidx35, ridx35, joined_upper, joined_lower, gate_src, gate_tgt]
  rfl

/-! ## The output row -/

theorem ref_apply (x0 : (⟨S100000x128, .f32⟩ : BufTy).Contents (Elt Ideal)) (x1 : (⟨S2x600000, .i32⟩ : BufTy).Contents (Elt Ideal))
    (x2 x3 : (⟨S128x128, .f32⟩ : BufTy).Contents (Elt Ideal)) (x4 : (⟨S256x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (r : Fin 600000) (j : Fin 128) :
    val_main_v43 (F := Ideal) x0 x1 x2 x3 x4 x5 x6 x7 (ix2 r j)
      = Cert.Spec.edge (fun k => val_main_v8 (F := Ideal) x0 x1 (ix2 r k)) (fun k => val_main_v17 (F := Ideal) x0 x1 (ix2 r k))
          (fun k j => x2 (ix2 k j)) (fun k j => x3 (ix2 k j))
          (fun l k => x4 (ix2 (Cert.Spec.upper l) k)) (fun l k => x4 (ix2 (Cert.Spec.lower l) k))
          (fun k => x5 (ix1 k)) (Ideal.ofBits .f32 0x00000000#32) (fun k j => x6 (ix2 k j)) (fun j => x7 (ix1 j)) j := by
  rw [val_main_v43_apply, val_main_v42_apply, val_main_v41_apply, val_main_v40_apply, bidx42]
  simp only [lidx40, ridx40, hidden_row]
  rfl
end Cert.ReferenceIdeal.RefValue
end
-- ==== Proof.BridgeKI.lean ====
/-
  Under the index-range precondition the kernel's result array is the reference's.

  Both are the edge function, row by row. The reference feeds it the table rows gathered by each index row; the kernel
  feeds it rows r and 600000 + r of its one gather over the joined index list, which under the precondition are those
  same table rows (no row is replaced by the fill). The weights differ only by where they are read from: the kernel's
  arrays are the arguments narrowed (the identity on the extended reals), cut in two halves, or given a unit axis.
-/
import proofs.«428091_j34256659153220_3_alg».proof.Proof.ValueKI
import proofs.«428091_j34256659153220_3_alg».proof.Proof.HostWeights
import proofs.«428091_j34256659153220_3_alg».proof.Proof.Gathered
import proofs.«428091_j34256659153220_3_alg».proof.Proof.RefEdge

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-- The edge function depends on its rows and weights only through their entries. -/
theorem edge_ext {s s' t t' bp bp' bm bm' : Fin 128 → EReal} {Ws Ws' Wt Wt' Ps Ps' Pt Pt' M M' : Fin 128 → Fin 128 → EReal}
    (z : EReal) (j : Fin 128)
    (h1 : ∀ k, s k = s' k) (h2 : ∀ k, t k = t' k) (h3 : ∀ k j, Ws k j = Ws' k j) (h4 : ∀ k j, Wt k j = Wt' k j)
    (h5 : ∀ l k, Ps l k = Ps' l k) (h6 : ∀ l k, Pt l k = Pt' l k) (h7 : ∀ k, bp k = bp' k)
    (h8 : ∀ k j, M k j = M' k j) (h9 : ∀ k, bm k = bm' k) :
    Cert.Spec.edge s t Ws Wt Ps Pt bp z M bm j = Cert.Spec.edge s' t' Ws' Wt' Ps' Pt' bp' z M' bm' j := by
  obtain rfl : s = s' := funext h1
  obtain rfl : t = t' := funext h2
  obtain rfl : Ws = Ws' := funext fun k => funext (h3 k)
  obtain rfl : Wt = Wt' := funext fun k => funext (h4 k)
  obtain rfl : Ps = Ps' := funext fun l => funext (h5 l)
  obtain rfl : Pt = Pt' := funext fun l => funext (h6 l)
  obtain rfl : bp = bp' := funext h7
  obtain rfl : M = M' := funext fun k => funext (h8 k)
  obtain rfl : bm = bm' := funext h9
  rfl

/-- The kernel's result array is the reference's last stage at the same argument arrays. -/
theorem result_eq (m : (ℓ : Loc nD τ sig) → Buf (Elt Ideal) ℓ) (hpre : Cert.Pre_KernelIdeal m) (c : Dev nD) :
    Gk m c = Cert.ReferenceIdeal.Read.val_main_v43 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  funext i
  obtain ⟨r, j, rfl⟩ : ∃ (r : Fin 600000) (j : Fin 128), i = ix2 r j := ⟨i 0, i 1, eq_ix2 i⟩
  rw [Cert.ReferenceIdeal.RefValue.ref_apply]
  rw [show ix2 r j = ix2 (⟨r.val, r.isLt⟩ : Fin 600000) j from rfl, Gk_at]
  unfold GkRow
  exact edge_ext _ _ (fun k => gathered_src m hpre c r k) (fun k => gathered_tgt m hpre c r k) (fun k j' => V_wsrc m c k j')
    (fun k j' => V_wtgt m c k j') (fun l k => V_projs m c l k) (fun l k => V_projt m c l k) (fun k => V_bproj m c k)
    (fun k j' => V_wmlp m c k j') (fun k => V_bmlp m c k)

end Cert.KernelIdeal.Hand

end
-- ==== Proof.lean ====
/-
  The certificate of the gated edge-message kernel against its reference.

  Per edge, both programs gate the source and the target node rows by a sigmoid of their own projection, project the
  two gated rows through the two halves of a 256 × 128 matrix, add a bias, cut off the negative part, and apply a last
  128 × 128 layer with its bias. The kernel gathers all 2·E rows at once and runs the arithmetic block by block on the
  matrix unit with narrowed operands; on the extended reals a narrowing is the identity, a matrix product is a plain
  sum, the two half projections add up to the projection of the joined row, and the kernel's sigmoid is the
  reference's quotient 1 / (1 + e⁻ˣ). The two gathers differ outside the table: the kernel fills a row whose index is
  out of range, the reference reads the nearest row; the precondition keeps every index inside [0, 100000), where both
  read the indexed row.
  The three frames: both kernel programs through the pipeline's launch (the array of gathered rows is staged by two
  windows, which hold it in two halves), the reference through its run. Nothing was rewritten between the kernel and
  its idealization.
-/
import proofs.«428091_j34256659153220_3_alg».proof.Defs
import proofs.«428091_j34256659153220_3_alg».proof.Proof.Gen.Kernel
import proofs.«428091_j34256659153220_3_alg».proof.Proof.Gen.Kernel.Skeleton
import proofs.«428091_j34256659153220_3_alg».proof.Proof.Gen.Kernel.Launch
import proofs.«428091_j34256659153220_3_alg».proof.Proof.Gen.Kernel.Points
import proofs.«428091_j34256659153220_3_alg».proof.Proof.Gen.KernelIdeal
import proofs.«428091_j34256659153220_3_alg».proof.Proof.Gen.KernelIdeal.Skeleton
import proofs.«428091_j34256659153220_3_alg».proof.Proof.Gen.KernelIdeal.Launch
import proofs.«428091_j34256659153220_3_alg».proof.Proof.Gen.KernelIdeal.Points
import proofs.«428091_j34256659153220_3_alg».proof.Proof.Gen.ReferenceIdeal
import proofs.«428091_j34256659153220_3_alg».proof.Proof.Gen.Pre_finite_inputs
import proofs.«428091_j34256659153220_3_alg».proof.Proof.Gen.ReferenceIdeal.Run
import proofs.«428091_j34256659153220_3_alg».proof.Proof.Gen.ReferenceIdeal.Read
import proofs.«428091_j34256659153220_3_alg».proof.Proof.RunK
import proofs.«428091_j34256659153220_3_alg».proof.Proof.BridgeKI
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the same result array: the kernel's is the edge function of its gathered rows, the
    reference's run ends at its last stage, and under the precondition the two are one function. -/
theorem algebraic : Cert.algebraic_KernelIdeal_ReferenceIdeal := by
  intro m ρ m' ρ' hpre hagree
  refine ⟨fun c => Cert.KernelIdeal.Hand.Gk m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.KernelIdeal.Hand.result_eq m hpre c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
